-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x50257 .f32) (main_arg1 : IVec S4096 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 50257#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x50257 : Shape := ⟨2, ![4096, 50257]⟩
abbrev S4096 : Shape := ⟨1, ![4096]⟩
abbrev S4096x1 : Shape := ⟨2, ![4096, 1]⟩
abbrev S512x3200 : Shape := ⟨2, ![512, 3200]⟩
abbrev S512 : Shape := ⟨1, ![512]⟩
abbrev S512x1 : Shape := ⟨2, ![512, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512, .i32⟩
  | .local _ .vmem, ⟨3, _⟩ => ⟨S512, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512_S512_0 : ∀ a, (![0] : Fin 1 → Nat) a + S512.size a ≤ S512.size a
  h_S512 : 0 < S512.numel
  shapeCasts_S512_S512x1 : S512.ShapeCasts S512x1
  iota_S512x3200_d1_w32 : S512x3200.Iotas .tc 32 [1]
  broadcasts_S512x1_S512x3200 : S512x1.Broadcasts S512x3200
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x3200.size a < S4096x50257.size a
  hwx0_0 : ∀ i : grid0.Coords, EltTy.bits .f32 = 32 ∨ (Rect.unit (s := S4096x50257) (fun a => cc0_transform_0 i a * S512x3200.size a) (fun a => (Pipeline.Clip.of (cc0_transform_0 i a) (S512x3200.size a) (S4096x50257.size a)).extent (S512x3200.size a)) fun a => Pipeline.Clip.inb (Pipeline.Clip.ok_of (hstart0_0 i a))).WholeWords (EltTy.packing .f32)
  hwxs0_0 : ∀ i : grid0.Coords, EltTy.bits .f32 = 32 ∨ (Rect.unit (s := S512x3200) (fun _ => 0) (fun a => (Pipeline.Clip.of (cc0_transform_0 i a) (S512x3200.size a) (S4096x50257.size a)).extent (S512x3200.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S4096.size a
  hwx0_1 : ∀ i : grid0.Coords, EltTy.bits .i32 = 32 ∨ (Rect.block (s := S4096) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)

variable [Facts₀]

abbrev win0_0 : Pipeline.Window sig grid0 :=
  Pipeline.Window.ofSpecClip (Memref.whole main_arg0) S512x3200.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_cst_1 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  bcast_S_S4096 : S_.BroadcastsInDim S4096 (![] : Fin 0 → Fin S4096.rank)
  reducesTo_S4096_S_d0 : S4096.ReducesTo [0] S_
  gather_S4096x50257_S4096x1x1_S4096x1_n_1_0_0_1_2_11_wf : GatherDims.WF S4096x50257 S4096x1x1 S4096x1 [] [1] [0] [1] [0] 2 ![1, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.PreRead.lean ====
/-
  The precondition, read back.  It is the conjunction of three tests over whole arrays: every matrix entry has
  absolute value below +∞; every label is ≥ 0; every label is < 50257 (as signed 32-bit integers).  When the
  conjunction is true each test is true at every index.  For a label word, "≥ 0 and < 50257 signed" is "< 50257 as
  a natural number".  For a matrix entry at the exact reading, "absolute value below +∞" is "a real number".
-/
import proofs.«424218_j71167608095256_3_alg».proof.Pre_finite_inputs
import proofs.«424218_j71167608095256_3_alg».proof.Proof.Gen.Pre_finite_inputs
import Idealize.ShloMosaic.Lib.ReduceAll
import Idealize.ShloMosaic.PureOps.Ideal

noncomputable section

namespace Cert.PreRead

open Idealize.ShloMosaic Cert.Pre_finite_inputs

/-- The result of a test over a whole array has one index. -/
instance : Subsingleton S_.Idx := ⟨fun a b => funext fun d => d.elim0⟩

/-- A word that is ≥ 0 and < 50257 as a signed integer is < 50257 as a natural number. -/
theorem toNat_lt_of_signed (w : BitVec 32) (h0 : IntOp.cmpi .sge w 0#32 = 1#1) (h1 : IntOp.cmpi .slt w 50257#32 = 1#1) :
    w.toNat < 50257 := by
  rw [IntOp.cmpi_sge] at h0
  rw [IntOp.cmpi_slt] at h1
  have e0 : (0#32 : BitVec 32).toInt = 0 := by decide
  have e1 : (50257#32 : BitVec 32).toInt = 50257 := by decide
  rw [e0] at h0; rw [e1] at h1
  have hw := w.isLt
  rw [BitVec.toInt_eq_toNat_cond] at h0 h1
  split at h0 <;> omega

variable {F : FTy → Type} [FloatOps F]

/-- The three tests, each at every index. -/
theorem split (x : FVec F S4096x50257 .f32) (lab : IVec S4096 32) (h : fn (F := F) x lab = fun _ => 1#1) :
    (∀ i, FloatOps.cmpf .olt (FloatOps.hostAbsf (x i)) (FloatOps.ofBits (F := F) .f32 0x7F800000#32) = 1#1)
      ∧ (∀ r, IntOp.cmpi .sge (lab r) 0#32 = 1#1) ∧ (∀ r, IntOp.cmpi .slt (lab r) 50257#32 = 1#1) := by
  have e := congrFun h (fun d => d.elim0)
  unfold fn at e
  dsimp only at e
  unfold andi at e
  rw [IntOp.andi_eq_one, IntOp.andi_eq_one] at e
  obtain ⟨⟨e1, e2⟩, e3⟩ := e
  exact ⟨fun i => Host.reduce_andi_all _ _ _ _ _ e1 i, fun r => Host.reduce_andi_all _ _ _ _ _ e2 r,
    fun r => Host.reduce_andi_all _ _ _ _ _ e3 r⟩

/-- Under the precondition every label is < 50257 as a natural number. -/
theorem label_lt (x : FVec F S4096x50257 .f32) (lab : IVec S4096 32) (h : fn (F := F) x lab = fun _ => 1#1) (r : S4096.Idx) :
    (lab r).toNat < 50257 :=
  toNat_lt_of_signed _ ((split x lab h).2.1 r) ((split x lab h).2.2 r)

/-- Under the precondition, at the exact reading, every matrix entry is a real number. -/
theorem entry_real (x : FVec Ideal S4096x50257 .f32) (lab : IVec S4096 32) (h : fn (F := Ideal) x lab = fun _ => 1#1)
    (i : S4096x50257.Idx) : ∃ r : ℝ, x i = (r : EReal) := by
  have e := (split x lab h).1 i
  have hinf : Ideal.ofBits .f32 0x7F800000#32 = (⊤ : EReal) := by simp [Ideal.ofBits, Ideal.ieee]
  simp only [Ideal.hostAbsf_def, Ideal.ofBits_def, hinf] at e
  change Ideal.cmp .olt (max (x i) (-(x i))) ⊤ = 1#1 at e
  unfold Ideal.cmp at e
  simp only [] at e
  generalize x i = v at e ⊢
  induction v using EReal.rec with
  | bot => simp at e
  | coe r => exact ⟨r, rfl⟩
  | top => simp at e

end Cert.PreRead

end
-- ==== Proof.Spec.lean ====
/-
  The mathematics both programs compute.

  The inputs are a 4096-by-50257 matrix x and 4096 integer labels.  For a row R whose label ℓ lies in 0 … 50256
  the row's PICKED entry is x[R, ℓ].  The loss is −2 times the sum of the picked entries over all rows, divided
  by 4096 · 50257.  One program scales the sum (−2 · Σ), the other sums the scaled entries (Σ −2 ·); over the
  extended reals the two agree when every entry is a real number, since then each side is the image of the same real
  number (the distributive law of ℝ; it fails at ±∞).
-/
import Idealize.ShloMosaic.PureOps.Ideal
import Idealize.ShloMosaic.Lib.ValueIdx

noncomputable section

namespace Cert.Spec

open Idealize.ShloMosaic Idealize.ShloMosaic.ValueIdx
open scoped BigOperators

/-- The matrix's shape and the label array's. -/
abbrev SX : Shape := ⟨2, ![4096, 50257]⟩
abbrev SL : Shape := ⟨1, ![4096]⟩

/-- Every label is a column number of the matrix. -/
def InRange (lab : IVec SL 32) : Prop := ∀ r : SL.Idx, (lab r).toNat < 50257

/-- Every matrix entry is a real number. -/
def AllReal (x : FVec Ideal SX .f32) : Prop := ∀ i, ∃ r : ℝ, x i = (r : EReal)

/-- The entry of row `R` in the column its label names (zero for a label that names no column). -/
def picked (x : FVec Ideal SX .f32) (lab : IVec SL 32) (R : Fin 4096) : EReal :=
  if h : (lab (ix1 R)).toNat < 50257 then x (ix2 R ⟨(lab (ix1 R)).toNat, h⟩) else 0

/-- The loss with the sum scaled: (−2 · (0 + Σ_R picked R)) / (4096 · 50257), the three constants as their binary32 words. -/
def lossScaledSum (x : FVec Ideal SX .f32) (lab : IVec SL 32) : EReal :=
  Ideal.div (Ideal.ofBits .f32 0xC0000000#32 * (Ideal.ofBits .f32 0x00000000#32 + ∑ R : Fin 4096, picked x lab R))
    (Ideal.ofBits .f32 0x4D445100#32)

/-- The loss with the scaled entries summed: (0 + Σ_R −2 · picked R) / (4096 · 50257). -/
def lossSumScaled (x : FVec Ideal SX .f32) (lab : IVec SL 32) : EReal :=
  Ideal.div (Ideal.ofBits .f32 0x00000000#32 + ∑ R : Fin 4096, Ideal.ofBits .f32 0xC0000000#32 * picked x lab R)
    (Ideal.ofBits .f32 0x4D445100#32)

/-- The inclusion of ℝ in the extended reals commutes with finite sums. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The word of +0.0 is 0 and the word of −2.0 is −2. -/
theorem word_zero : Ideal.ofBits .f32 0x00000000#32 = ((0 : ℝ) : EReal) := by simp [Ideal.ofBits, Ideal.ieee]
theorem word_neg_two : Ideal.ofBits .f32 0xC0000000#32 = ((-2 : ℝ) : EReal) := by
  simp [Ideal.ofBits, Ideal.ieee, -EReal.coe_mul]; norm_num

/-- A picked entry of a matrix of reals is a real. -/
theorem picked_real (x : FVec Ideal SX .f32) (lab : IVec SL 32) (hx : AllReal x) (R : Fin 4096) :
    ∃ r : ℝ, picked x lab R = (r : EReal) := by
  unfold picked; split
  · exact hx _
  · exact ⟨0, by simp⟩

/-- Scaling the sum and summing the scaled entries agree on matrices of reals. -/
theorem lossScaledSum_eq_lossSumScaled (x : FVec Ideal SX .f32) (lab : IVec SL 32) (hx : AllReal x) :
    lossScaledSum x lab = lossSumScaled x lab := by
  unfold lossScaledSum lossSumScaled
  choose f hf using picked_real x lab hx
  congr 1
  simp only [hf, word_zero, word_neg_two]
  simp only [← EReal.coe_mul]
  rw [← coe_sum, ← coe_sum, ← EReal.coe_add, ← EReal.coe_add, ← EReal.coe_mul]
  congr 1
  rw [zero_add, zero_add, Finset.mul_sum]

end Cert.Spec

end
-- ==== Proof.RefValue.lean ====
/-
  The reference program's result at the exact reading, under the label range.

  The reference takes a matrix x of 4096 rows and 50257 columns and one integer label per row.  Row by row it
  forms a column number idx = label + 50257 where label < 0, else label; a flag ok = (0 ≤ idx ∧ idx ≤ 50256);
  the gathered entry g = x[row, idx read as a signed integer and clamped into 0 … 50256]; and r = g where ok, else
  NaN.  Its result is (0 + Σ_rows (−2 · r[row])) / (4096 · 50257).

  When every label ℓ lies in 0 … 50256 nothing of this machinery acts: ℓ is not negative, so idx = ℓ; both
  comparisons of the flag hold, so ok is true on every row and the AND over the flag's last, one-element axis is
  true; ℓ reads the same signed and unsigned and the clamp leaves it alone, so g = x[row, ℓ].  Hence r[row] is the
  row's picked entry and the result is the loss with the scaled entries summed.

  The file follows that order: facts on one 32-bit word below 50257; the column number and the flag of a row; the
  gather read at a row; the row's value through the reshape and the scaling; the sum over rows re-indexed by the
  row number; the quotient.
-/
import proofs.«424218_j71167608095256_3_alg».proof.Proof.Gen.ReferenceIdeal.Run
import proofs.«424218_j71167608095256_3_alg».proof.Proof.Gen.ReferenceIdeal.Read
import proofs.«424218_j71167608095256_3_alg».proof.Proof.Spec

noncomputable section

namespace Cert.RefValue
open Idealize.ShloMosaic Idealize.ShloMosaic.ValueIdx
open Cert.ReferenceIdeal Cert.ReferenceIdeal.Gen Cert.ReferenceIdeal.Read
open scoped BigOperators

/-! ## One word below 50257

A 32-bit word w whose unsigned value is below 50257 has its top bit clear, so its signed value is its unsigned
one.  Three comparisons and the clamp follow by integer arithmetic. -/

section Words
variable {w : BitVec 32}

/-- Such a word reads the same signed and unsigned. -/
theorem toInt_of_lt (hw : w.toNat < 50257) : w.toInt = (w.toNat : Int) :=
  BitVec.toInt_eq_toNat_of_lt (by omega)

/-- It is not negative: the test "w < 0" (signed) fails. -/
theorem slt_zero_of_lt (hw : w.toNat < 50257) : IntOp.cmpi .slt w 0#32 = 0#1 := by
  refine eq_zero_of_ne_one fun h1 => ?_
  rw [IntOp.cmpi_slt, toInt_of_lt hw, show (0#32 : BitVec 32).toInt = 0 from by decide] at h1
  omega

/-- The test "w ≥ 0" (signed) holds. -/
theorem sge_zero_of_lt (hw : w.toNat < 50257) : IntOp.cmpi .sge w 0#32 = 1#1 := by
  rw [IntOp.cmpi_sge, toInt_of_lt hw, show (0#32 : BitVec 32).toInt = 0 from by decide]
  omega

/-- The test "w ≤ 50256" (signed) holds. -/
theorem sle_last_of_lt (hw : w.toNat < 50257) : IntOp.cmpi .sle w 50256#32 = 1#1 := by
  rw [IntOp.cmpi_sle, toInt_of_lt hw, show (50256#32 : BitVec 32).toInt = 50256 from by decide]
  omega

/-- Clamping the signed value into 0 … 50256 leaves it alone. -/
theorem clamp_of_lt (hw : w.toNat < 50257) : min w.toInt.toNat (50257 - 1) = w.toNat := by
  rw [toInt_of_lt hw, Int.toNat_natCast]
  omega

/-- A left fold by AND that starts at 1 and meets only 1s ends at 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, hi => hi
  | a :: l, init, hi => by
    rw [List.foldl_cons]
    exact foldl_andi_ones f hf l _ (IntOp.andi_eq_one.2 ⟨hi, hf a⟩)

end Words

/-! ## The column number and the flag of a row

The labels are first laid out as a 4096 × 1 column, then as a 4096 × 1 × 1 array; the entry at (R, ·) or (R, ·, ·)
is row R's label throughout, since the added axes have one element. -/

section Index
variable (x1 : (⟨S4096, .i32⟩ : BufTy).Contents (Elt Ideal)) (h : Cert.Spec.InRange x1)

/-- The label column at row R is row R's label. -/
theorem col_label (R : Fin 4096) (b : Fin 1) : val_main_v0 (F := Ideal) x1 (ix2 R b) = x1 (ix1 R) := by
  rw [val_main_v0_apply]
  exact congrArg x1 (funext fun a => match a with | ⟨0, _⟩ => rfl)

include h in
/-- The column number idx = (label + 50257 where label < 0, else label) is the label itself: the label is not
    negative. -/
theorem idx_col (R : Fin 4096) (b : Fin 1) : val_main_call0_v4 (F := Ideal) x1 (ix2 R b) = x1 (ix1 R) := by
  rw [val_main_call0_v4_apply, val_main_call0_v1_apply, col_label, val_main_call0_v0_apply, val_main_call0_c_apply,
    slt_zero_of_lt (h (ix1 R)), select_zero]

include h in
/-- The same after the reshape to 4096 × 1 × 1: the flat position of (R, b, c) is R, as b = c = 0. -/
theorem idx_at (R : Fin 4096) (b c : Fin 1) : val_main_call0_v5 (F := Ideal) x1 (ix3 R b c) = x1 (ix1 R) := by
  rw [val_main_call0_v5_apply]
  have e : idx_main_call0_v5 (ix3 R b c) = ix2 R 0 := by
    funext a
    match a with
    | ⟨0, _⟩ =>
      refine Fin.ext ?_
      have hb := b.isLt; have hc := c.isLt
      show ((R.val * 1 + b.val) * 1 + c.val) / 1 = R.val
      omega
    | ⟨1, _⟩ => rfl
  rw [e, idx_col x1 h]

include h in
/-- Every element of the flag array (0 ≤ idx) ∧ (idx ≤ 50256) is true. -/
theorem ok_elem (i : S4096x1x1.Idx) : val_main_call0_v11 (F := Ideal) x1 i = 1#1 := by
  obtain ⟨R, b, c, rfl⟩ : ∃ (R : Fin 4096) (b c : Fin 1), i = ix3 R b c := ⟨i 0, i 1, i 2, eq_ix3 i⟩
  rw [val_main_call0_v11_apply, val_main_call0_v7_apply, val_main_call0_v10_apply, idx_at x1 h, val_main_call0_v6_apply,
    val_main_call0_c_2_apply, val_main_call0_v9_apply, val_main_call0_v8_apply, val_main_call0_c_1_apply,
    sge_zero_of_lt (h (ix1 R)), sle_last_of_lt (h (ix1 R))]
  rfl

include h in
/-- So the AND of the flags over the last axis, started from true, is true at every row: the fold meets only
    true flags, whichever of them reduce into the row. -/
theorem ok_at (j : S4096x1.Idx) : val_main_call0_v12 (F := Ideal) x1 j = 1#1 := by
  unfold val_main_call0_v12
  rw [Host.reduce_eq_foldl]
  exact foldl_andi_ones _ (ok_elem x1 h) _ _ (val_main_call0_c_3_apply _)

end Index

/-! ## The gather read at a row

The gather's dimension numbers make operand axis 0 a batching axis paired with axis 0 of the start indices, and
operand axis 1 the one indexed axis, collapsed (slice size 1); the result has no offset axes.  So result element
(R, b) reads the operand at (R, s) where s is the start index at (R, b, 0), read signed and clamped into
0 … 50256: on axis 0 the start and the offset are 0 and the batching coordinate is R; on axis 1 the batching and
offset coordinates are 0 and the start is the clamped index.  That index is row R's label, which the clamp
keeps. -/

section Gather
variable (x0 : (⟨S4096x50257, .f32⟩ : BufTy).Contents (Elt Ideal))
  (x1 : (⟨S4096, .i32⟩ : BufTy).Contents (Elt Ideal)) (h : Cert.Spec.InRange x1)

include h in
/-- The gathered entry of row R is x[R, label R]. -/
theorem gather_at (R : Fin 4096) (b : Fin 1) :
    val_main_call0_v13 (F := Ideal) x0 x1 (ix2 R b) = x0 (ix2 R ⟨(x1 (ix1 R)).toNat, h (ix1 R)⟩) := by
  unfold val_main_call0_v13 Host.gather
  congr 1
  funext a
  refine Fin.ext ?_
  match a with
  | ⟨0, _⟩ =>
    show gather_S4096x50257_S4096x1x1_S4096x1_n_1_0_0_1_2_11.start (ix2 R b) (val_main_call0_v5 (F := Ideal) x1) 0 + gather_S4096x50257_S4096x1x1_S4096x1_n_1_0_0_1_2_11.batchCoord (ix2 R b) 0 + gather_S4096x50257_S4096x1x1_S4096x1_n_1_0_0_1_2_11.offCoord (ix2 R b) 0 = R.val
    have hb : (0 : Fin 2) ∈ gather_S4096x50257_S4096x1x1_S4096x1_n_1_0_0_1_2_11.operandBatchingDims := List.mem_singleton.mpr rfl
    rw [GatherDims.start_batching _ _ _ _ hb,
      GatherDims.offCoord_eq_zero _ _ _ (fun hk => ((GatherDims.mem_sKept _ _).mp hk).2 hb)]
    simp only [Nat.zero_add, Nat.add_zero]
    unfold GatherDims.batchCoord
    rw [dif_pos hb]
    rfl
  | ⟨1, _⟩ =>
    show gather_S4096x50257_S4096x1x1_S4096x1_n_1_0_0_1_2_11.start (ix2 R b) (val_main_call0_v5 (F := Ideal) x1) 1 + gather_S4096x50257_S4096x1x1_S4096x1_n_1_0_0_1_2_11.batchCoord (ix2 R b) 1 + gather_S4096x50257_S4096x1x1_S4096x1_n_1_0_0_1_2_11.offCoord (ix2 R b) 1
      = (x1 (ix1 R)).toNat
    have hc : (1 : Fin 2) ∈ gather_S4096x50257_S4096x1x1_S4096x1_n_1_0_0_1_2_11.collapsedSliceDims := List.mem_singleton.mpr rfl
    have hnb : (1 : Fin 2) ∉ gather_S4096x50257_S4096x1x1_S4096x1_n_1_0_0_1_2_11.operandBatchingDims := by decide
    have hm : (1 : Fin 2) ∈ gather_S4096x50257_S4096x1x1_S4096x1_n_1_0_0_1_2_11.startIndexMap := List.mem_singleton.mpr rfl
    rw [GatherDims.batchCoord_eq_zero _ _ _ hnb,
      GatherDims.offCoord_eq_zero _ _ _ (fun hk => ((GatherDims.mem_sKept _ _).mp hk).1 hc)]
    simp only [Nat.add_zero]
    unfold GatherDims.start
    rw [dif_pos hm]
    -- the start index of result element (R, b) sits at (R, b, 0) of the start indices
    have hsi : gather_S4096x50257_S4096x1x1_S4096x1_n_1_0_0_1_2_11.siIdx (ix2 R b) ⟨List.idxOf (1 : Fin 2) gather_S4096x50257_S4096x1x1_S4096x1_n_1_0_0_1_2_11.startIndexMap, List.idxOf_lt_length_iff.2 hm⟩ = ix3 R b 0 := by
      funext c; refine Fin.ext ?_
      match c with
      | ⟨0, _⟩ => rfl
      | ⟨1, _⟩ => rfl
      | ⟨2, _⟩ => rfl
    rw [hsi, idx_at x1 h]
    exact clamp_of_lt (h (ix1 R))

end Gather

/-! ## A row's value, and the sum over rows -/

section Rows
variable (x0 : (⟨S4096x50257, .f32⟩ : BufTy).Contents (Elt Ideal))
  (x1 : (⟨S4096, .i32⟩ : BufTy).Contents (Elt Ideal)) (h : Cert.Spec.InRange x1)

include h in
/-- "The gathered entry where ok, else NaN" is the gathered entry, which is the row's picked entry. -/
theorem row_picked (R : Fin 4096) (b : Fin 1) : val_main_v1 (F := Ideal) x0 x1 (ix2 R b) = Cert.Spec.picked x0 x1 R := by
  rw [val_main_v1_apply, ok_at x1 h, select_one, gather_at x0 x1 h]
  unfold Cert.Spec.picked
  rw [dif_pos (h (ix1 R))]

include h in
/-- The reshape from 4096 × 1 to 4096 keeps row R at position R. -/
theorem flat_picked (R : Fin 4096) : val_main_v2 (F := Ideal) x0 x1 (ix1 R) = Cert.Spec.picked x0 x1 R := by
  rw [val_main_v2_apply]
  have e : idx_main_v2 (ix1 R) = ix2 R 0 := by
    funext a
    match a with
    | ⟨0, _⟩ => exact Fin.ext (Nat.div_one _)
    | ⟨1, _⟩ => rfl
  rw [e, row_picked x0 x1 h]

include h in
/-- The scaled array at row R is −2 (as its binary32 word) times the row's picked entry. -/
theorem scaled_picked (R : Fin 4096) :
    val_main_v4 (F := Ideal) x0 x1 (ix1 R) = Ideal.ofBits .f32 0xC0000000#32 * Cert.Spec.picked x0 x1 R := by
  rw [val_main_v4_apply, val_main_v3_apply, val_main_cst_apply, flat_picked x0 x1 h]
  rfl

/-- The indices of a length-4096 array are the row numbers 0 … 4095. -/
def rowEquiv : S4096.Idx ≃ Fin 4096 where
  toFun i := i 0
  invFun R := ix1 R
  left_inv i := (eq_ix1 i).symm
  right_inv _ := rfl

include h in
/-- The sum of the scaled array over its indices is the sum over the row numbers of −2 · picked. -/
theorem sum_scaled :
    ∑ j : S4096.Idx, val_main_v4 (F := Ideal) x0 x1 j
      = ∑ R : Fin 4096, Ideal.ofBits .f32 0xC0000000#32 * Cert.Spec.picked x0 x1 R := by
  refine Fintype.sum_equiv rowEquiv _ _ fun j => ?_
  obtain ⟨R, rfl⟩ : ∃ R : Fin 4096, j = ix1 R := ⟨j 0, eq_ix1 j⟩
  exact scaled_picked x0 x1 h R

end Rows

/-! ## The result -/

/-- Under the label range the reference's result is the loss with the scaled entries summed. -/
theorem ref_value (x0 : (⟨Cert.ReferenceIdeal.S4096x50257, .f32⟩ : BufTy).Contents (Elt Ideal))
    (x1 : (⟨Cert.ReferenceIdeal.S4096, .i32⟩ : BufTy).Contents (Elt Ideal)) (h : Cert.Spec.InRange x1) :
    Cert.ReferenceIdeal.Read.val_main_v6 (F := Ideal) x0 x1 = fun _ => Cert.Spec.lossSumScaled x0 x1 := by
  funext i
  -- the quotient of (the word of 0 plus the sum over all indices of the scaled array) by the word of 4096 · 50257
  rw [val_main_v6_apply, val_main_v5_apply, sum_scaled x0 x1 h, val_main_cst_0_apply, val_main_cst_1_apply]
  rfl

end Cert.RefValue

end
-- ==== Proof.Kernel.Run.lean ====
/-
  The kernel body at one grid point, as a Hoare triple over ANY four whole VMEM buffers: the staged tile of the
  matrix (512 rows by 3200 columns), the staged 512 labels, the staged 512-by-1 result block and the 512-by-1
  accumulator the kernel keeps between grid points.

  A grid point is a pair (row tile, column tile). The body compares each label, shifted by the column tile's offset,
  with the column numbers 0 … 3199, keeps the matrix entry where they agree and zero elsewhere, sums each row of
  that, and adds the row sums to the accumulator. At the first column tile the accumulator is first set to zero; at
  the last column tile the accumulator, once updated, is copied to the result block. So there are three cases,
  according to the two conditions on the column tile's number; in each the triple names what every buffer holds
  afterwards as a function of what it held before (the accumulator's new contents is the body's one arithmetic
  payload, `k0_pay2`).
-/
import proofs.«424218_j71167608095256_3_alg».proof.Proof.Gen.Kernel.Launch
import proofs.«424218_j71167608095256_3_alg».proof.Proof.Gen.Kernel.Skeleton
import proofs.«424218_j71167608095256_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The column tile is the first one (its number is 0), as the body tests it. -/
abbrev isFirst (i : grid0.Coords) : Prop :=
  (Scalar.cmpi .ne (Scalar.extui (Scalar.cmpi .eq (BitVec.ofNat 32 (i 1).val) 0#32)) 0#32) = 1#1
/-- The column tile is the last one (its number is 15), as the body tests it. -/
abbrev isLast (i : grid0.Coords) : Prop := k0_cond2 i = 1#1

theorem zero2 : (![0, 0] : Fin 2 → Nat) = fun _ => 0 := funext fun a => by fin_cases a <;> rfl
theorem zero1 : (![0] : Fin 1 → Nat) = fun _ => 0 := funext fun a => by fin_cases a <;> rfl

set_option maxHeartbeats 1000000 in
/-- A middle column tile (neither first nor last): the accumulator gains the tile's row sums; nothing else changes. -/
theorem run_middle (c : Dev nD) (i : grid0.Coords)
    (arg2 : Memref sig .tc .vmem S512x3200 .f32) (harg2 : arg2.IsWhole) (arg3 : Memref sig .tc .vmem S512 .i32) (harg3 : arg3.IsWhole)
    (arg4 : Memref sig .tc .vmem S512x1 .f32) (harg4 : arg4.IsWhole) (arg5 : Memref sig .tc .vmem S512x1 .f32) (harg5 : arg5.IsWhole)
    (hc0 : ¬isFirst i) (hc1 : ¬isLast i)
    (x0 : Vec F S512x3200 .f32) (x1 : Vec F S512 .i32) (x2 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare xs
          ∗ (iprop(owns (c : Thread nD τ) arg2 fullShare x0 ∗ owns (c : Thread nD τ) arg3 fullShare x1 ∗ owns (c : Thread nD τ) arg4 fullShare x2
                ∗ owns (c : Thread nD τ) arg5 fullShare (k0_pay2 i x1 x0 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.mem_singleton_self _, View.mem_set_unit_zero zero2 Facts₀.inb_S512x1_S512x1_0_0 y⟩),
    View.canon_unit_zero zero2]
  simp only [View.readAt_eq_ld, harg2.read_unread, harg3.read_unread, harg5.read_unread,
    View.ld_unit_zero (S := S512x3200) zero2, View.ld_unit_zero (S := S512) zero1, View.ld_unit_zero (S := S512x1) zero2]

set_option maxHeartbeats 1000000 in
/-- The first column tile: the accumulator is set to zero and then gains the tile's row sums, whatever it held. -/
theorem run_first (c : Dev nD) (i : grid0.Coords)
    (arg2 : Memref sig .tc .vmem S512x3200 .f32) (harg2 : arg2.IsWhole) (arg3 : Memref sig .tc .vmem S512 .i32) (harg3 : arg3.IsWhole)
    (arg4 : Memref sig .tc .vmem S512x1 .f32) (harg4 : arg4.IsWhole) (arg5 : Memref sig .tc .vmem S512x1 .f32) (harg5 : arg5.IsWhole)
    (hc0 : isFirst i) (hc1 : ¬isLast i)
    (x0 : Vec F S512x3200 .f32) (x1 : Vec F S512 .i32) (x2 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare xs
          ∗ (iprop(owns (c : Thread nD τ) arg2 fullShare x0 ∗ owns (c : Thread nD τ) arg3 fullShare x1 ∗ owns (c : Thread nD τ) arg4 fullShare x2
                ∗ owns (c : Thread nD τ) arg5 fullShare (k0_pay2 i x1 x0 (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self, View.mem_set_unit_zero zero2 Facts₀.inb_S512x1_S512x1_0_0 y⟩),
    View.canon_cons_unit_zero zero2]
  simp only [View.readAt_eq_ld, harg2.read_unread, harg3.read_unread,
    View.ld_unit_zero (S := S512x3200) zero2, View.ld_unit_zero (S := S512) zero1,
    View.readCov_unit_zero (S := S512x1) _ zero2]

set_option maxHeartbeats 1000000 in
/-- The last column tile: the accumulator gains the tile's row sums, and its new contents are copied to the result block. -/
theorem run_last (c : Dev nD) (i : grid0.Coords)
    (arg2 : Memref sig .tc .vmem S512x3200 .f32) (harg2 : arg2.IsWhole) (arg3 : Memref sig .tc .vmem S512 .i32) (harg3 : arg3.IsWhole)
    (arg4 : Memref sig .tc .vmem S512x1 .f32) (harg4 : arg4.IsWhole) (arg5 : Memref sig .tc .vmem S512x1 .f32) (harg5 : arg5.IsWhole)
    (hc0 : ¬isFirst i) (hc1 : isLast i)
    (x0 : Vec F S512x3200 .f32) (x1 : Vec F S512 .i32) (x2 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare xs
          ∗ (iprop(owns (c : Thread nD τ) arg2 fullShare x0 ∗ owns (c : Thread nD τ) arg3 fullShare x1
                ∗ owns (c : Thread nD τ) arg4 fullShare (k0_pay2 i x1 x0 xs)
                ∗ owns (c : Thread nD τ) arg5 fullShare (k0_pay2 i x1 x0 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero zero2 Facts₀.inb_S512x1_S512x1_0_0 y⟩),
      View.canon_unit_zero zero2]
    simp only [View.readAt_eq_ld, harg2.read_unread, harg3.read_unread, harg5.read_unread,
      View.ld_unit_zero (S := S512x3200) zero2, View.ld_unit_zero (S := S512) zero1, View.ld_unit_zero (S := S512x1) zero2,
      View.readCov_unit_zero (S := S512x1) _ zero2]
  iexists _; isplitr
  swap; · iexact HS
  ipureintro
  sl_unfold_words
  rw [View.read_writes_eq_canon _ _ _ (fun y => ⟨_, List.mem_singleton_self _, View.mem_set_unit_zero zero2 Facts₀.inb_S512x1_S512x1_0_0 y⟩),
    View.canon_unit_zero zero2]
  simp only [View.readAt_eq_ld, harg2.read_unread, harg3.read_unread, harg5.read_unread,
    View.ld_unit_zero (S := S512x3200) zero2, View.ld_unit_zero (S := S512) zero1, View.ld_unit_zero (S := S512x1) zero2,
    View.readCov_unit_zero (S := S512x1) _ zero2]

end Cert.Kernel.Body

end
-- ==== Proof.Kernel.Tile.lean ====
/-
  The accumulator's update never looks at the part of a column tile that hangs over the matrix's last column.

  The matrix has 50257 columns and a column tile has 3200, so the sixteenth tile (columns 48000 … 51199) overhangs the
  matrix by 943 columns; what the staged tile holds there is not determined.  The body keeps a tile entry only where
  the tile's column number equals the row's label minus the tile's first column.  A label in 0 … 50256 can therefore
  only keep a column that lies inside the matrix.  So the update is the same whatever the overhang holds: this is what
  lets the accumulator's contents be named as a function of the matrix and the labels alone.
-/
import proofs.«424218_j71167608095256_3_alg».proof.Proof.Gen.Kernel.Skeleton
import Idealize.ShloMosaic.Lib.Pipeline

set_option maxRecDepth 16384

noncomputable section

namespace Cert.Kernel.Body

open Cert.Kernel Cert.Kernel.Gen
open Idealize.ShloMosaic Idealize.ShloMosaic.Pipeline

variable {F : FTy → Type} [FloatOps F]

/-- Where the tile's column number equals the row's label less the tile's first column (as 32-bit words). -/
def colMask (i : grid0.Coords) (v4 : IVec S512 32) : IVec S512x3200 1 :=
  cmpi .eq (iota .tc S512x3200 32 [1] Facts₀.iota_S512x3200_d1_w32)
    (broadcastTo S512x3200 (subi (shapeCast S512x1 v4 Facts₀.shapeCasts_S512_S512x1)
      (broadcast S512x1 (Scalar.muli (BitVec.ofNat 32 (i 1).val) 3200#32))) Facts₀.broadcasts_S512x1_S512x3200)

/-- The accumulator's new contents from the tile with the unkept entries already replaced by zero: each row summed,
    added to the old contents. -/
def ofKept (sel : Vec F S512x3200 .f32) (v16 : Vec F S512x1 .f32) : FVec F S512x1 .f32 :=
  shapeCast S512x1 (addf v16 (shapeCast S512x1 (multiReduction .add [1] S512 sel 0x00000000#32 Facts₀.reduces_S512x3200_S512 (.inl rfl) rfl)
    Facts₀.shapeCasts_S512_S512x1)) Facts₀.shapeCasts_S512x1_S512x1

/-- The body's payload is that function of the kept entries. -/
theorem pay2_eq (i : grid0.Coords) (v4 : Vec F S512 .i32) (v11 : Vec F S512x3200 .f32) (v16 : Vec F S512x1 .f32) :
    k0_pay2 i v4 v11 v16
      = ofKept (select (colMask i v4) v11 (broadcast S512x3200 (Scalar.ofBits .f32 0x00000000#32))) v16 := rfl

/-- If column `cc` of tile `j` equals, as 32-bit words, the label less the tile's first column, then the label IS
    matrix column `cc + 3200 j` — nothing wraps, since cc < 3200, j < 16 and the label is below 50257 — so that column
    is a column of the matrix. -/
theorem col_lt_of_match (cc j : Nat) (w : BitVec 32) (hcc : cc < 3200) (hj : j < 16) (hw : w.toNat < 50257)
    (h : BitVec.ofNat 32 cc = IntOp.subi w (Scalar.muli (BitVec.ofNat 32 j) 3200#32)) : cc + 3200 * j < 50257 := by
  have e := congrArg BitVec.toNat h
  simp only [IntOp.subi, Scalar.muli, IntOp.muli, BitVec.toNat_sub, BitVec.toNat_mul, BitVec.toNat_ofNat] at e
  omega

/-- A kept position lies in the part of the tile that is inside the matrix. -/
theorem moved_of_kept (i : grid0.Coords) (v4 : Vec F S512 .i32) (hv4 : ∀ r, (v4 r).toNat < 50257) (y : S512x3200.Idx)
    (hk : colMask i v4 y = 1#1) : win0_0.moved i y = true := by
  rw [win0_0.moved_iff]
  have hj : (i 1).val < 16 := (i 1).isLt
  have hi : (i 0).val < 8 := (i 0).isLt
  have hy0 : (y 0).val < 512 := (y 0).isLt
  have hy1 : (y 1).val < 3200 := (y 1).isLt
  unfold colMask at hk
  have hk' := IntOp.cmpi_eq.mp hk
  have e1 : iota .tc S512x3200 32 [1] Facts₀.iota_S512x3200_d1_w32 y = BitVec.ofNat 32 (y 1).val := by
    show BitVec.ofNat 32 (0 * S512x3200.size 1 + (y 1).val) = _
    rw [Nat.zero_mul, Nat.zero_add]
  rw [e1] at hk'
  have hcol : (y 1).val + 3200 * (i 1).val < 50257 := col_lt_of_match (y 1).val (i 1).val _ hy1 hj (hv4 _) hk'
  intro a
  match a with
  | ⟨0, _⟩ =>
    have hc := win0_0.hclip i (0 : Fin 2)
    change Clip.Ok (BitVec.ofNat 32 (i 0).val).toNat 512 4096 (win0_0.clip i (0 : Fin 2)) at hc
    show (y 0).val < (win0_0.clip i (0 : Fin 2)).extent 512
    rw [BitVec.toNat_ofNat] at hc
    generalize win0_0.clip i (0 : Fin 2) = cl at hc ⊢
    cases cl with
    | none => exact hy0
    | some n =>
      obtain ⟨h1, h2, h3⟩ := hc
      show (y 0).val < n
      have : (i 0).val % 2 ^ 32 = (i 0).val := Nat.mod_eq_of_lt (by omega)
      omega
  | ⟨1, _⟩ =>
    have hc := win0_0.hclip i (1 : Fin 2)
    change Clip.Ok (BitVec.ofNat 32 (i 1).val).toNat 3200 50257 (win0_0.clip i (1 : Fin 2)) at hc
    show (y 1).val < (win0_0.clip i (1 : Fin 2)).extent 3200
    rw [BitVec.toNat_ofNat] at hc
    generalize win0_0.clip i (1 : Fin 2) = cl at hc ⊢
    cases cl with
    | none => exact hy1
    | some n =>
      obtain ⟨h1, h2, h3⟩ := hc
      show (y 1).val < n
      have : (i 1).val % 2 ^ 32 = (i 1).val := Nat.mod_eq_of_lt (by omega)
      omega

/-- Keeping entries of a tile does not depend on what fills the tile outside the matrix. -/
theorem kept_fill_indep (i : grid0.Coords) (v4 : Vec F S512 .i32) (hv4 : ∀ r, (v4 r).toNat < 50257)
    (blk : (win0_0.xblock i).Idx → Elt F .f32) (d d' : S512x3200.Idx → Elt F .f32) (z : Vec F S512x3200 .f32) :
    select (colMask i v4) (win0_0.fill i d blk) z = select (colMask i v4) (win0_0.fill i d' blk) z := by
  funext y
  show Scalar.select (colMask i v4 y) (win0_0.fill i d blk y) (z y) = Scalar.select (colMask i v4 y) (win0_0.fill i d' blk y) (z y)
  by_cases hk : colMask i v4 y = 1#1
  · have hm := moved_of_kept i v4 hv4 y hk
    have e : win0_0.fill i d blk y = win0_0.fill i d' blk y := by
      unfold Window.fill
      rw [dif_pos hm, dif_pos hm]
    rw [e]
  · have hk0 : colMask i v4 y = 0#1 := by
      revert hk; generalize colMask i v4 y = b; revert b; decide
    rw [hk0]; rfl

/-- So neither does the accumulator's update. -/
theorem pay2_fill_indep (i : grid0.Coords) (v4 : Vec F S512 .i32) (hv4 : ∀ r, (v4 r).toNat < 50257)
    (blk : (win0_0.xblock i).Idx → Elt F .f32) (d d' : S512x3200.Idx → Elt F .f32) (v16 : Vec F S512x1 .f32) :
    k0_pay2 i v4 (win0_0.fill i d blk) v16 = k0_pay2 i v4 (win0_0.fill i d' blk) v16 := by
  rw [pay2_eq, pay2_eq, kept_fill_indep i v4 hv4 blk d d']

end Cert.Kernel.Body

end
-- ==== Proof.Kernel.Frame.lean ====
/-
  The frame of the program around its one kernel launch, and what the launch leaves in the result array.

  The grid has 8 row tiles by 16 column tiles, visited row tile by row tile.  For each row tile the kernel keeps a
  512-by-1 accumulator: set to zero at the first column tile, increased by each column tile's row sums of the entries
  the labels select, copied to the result block at the last column tile (the only point whose result block is written
  back).  This module names what the accumulator holds after every grid point (`accAfter`, by recursion on the
  point), carries it through the launch as the kernel's invariant between points, and proves the per-point obligation
  from the three body cases — under the hypothesis that every label is a column of the matrix, which is what makes the
  contents independent of the words the last column tile holds beyond the matrix's last column.
-/
import proofs.«424218_j71167608095256_3_alg».proof.Proof.Kernel.Run
import proofs.«424218_j71167608095256_3_alg».proof.Proof.Kernel.Tile
import proofs.«424218_j71167608095256_3_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the 128 grid points -/

/-- The first column tile is at the points ≡ 0 (mod 16), the last at the points ≡ 15. -/
theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)
/-- Away from the last column tile the result block is neither stored into nor written back. -/
theorem result_idle : ∀ t : Fin cfg0.N, ¬isLast (grid0.coords t) → cfg0.idle 2 (grid0.coords t) = true := by decide +kernel
theorem result_kept : ∀ t : Fin cfg0.N, ¬isLast (grid0.coords t) → (cfg0.win 2).flush t = false := by decide +kernel
/-- At the last column tile it is stored into. -/
theorem result_live : ∀ t : Fin cfg0.N, isLast (grid0.coords t) → cfg0.idle 2 (grid0.coords t) = false := by decide +kernel

/-! ## What the kernel's buffers hold -/

/-- Every label, as the launch finds the label array, is a column of the matrix. -/
def LabelsOk : Prop := ∀ (c : Dev nD) (r : S4096.Idx), (V m c main_arg1 r).toNat < 50257

/-- The staging buffers the pipeline hands the body at point `t`, and the accumulator. -/
abbrev ms0 (t : Fin cfg0.N) : Memref sig .tc .vmem S512x3200 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S512 .i32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S512x1 .f32 := win0_2.stage (cfg0.slots t 2)
abbrev hs2 (t : Fin cfg0.N) : (ms2 t).IsWhole := Facts₀.hstage0_2 ((cfg0.slots t 2).cast Facts₀.nbuf0_2)
abbrev scM : Memref sig .tc .vmem S512x1 .f32 := Memref.whole cc0_scratch0

/-- The part of the matrix's tile at point `t` that lies inside the matrix. -/
def xblk (c : Dev nD) (t : Fin cfg0.N) : (win0_0.xblock (grid0.coords t)).Idx → Elt F .f32 :=
  (win0_0.blk t).view.read (Elt F) (V m c main_arg0)
/-- The tile filled out with zeros beyond the matrix's last column. -/
def xtile (c : Dev nD) (t : Fin cfg0.N) : Vec F S512x3200 .f32 :=
  win0_0.fill (grid0.coords t) (fun _ => Scalar.ofBits .f32 0x00000000#32) (xblk m c t)
/-- The 512 labels of the row tile at point `t`. -/
def ltile (c : Dev nD) (t : Fin cfg0.N) : Vec F S512 .i32 := iblk m c 1 t

/-- THE ACCUMULATION: the accumulator after the body at point `n` — from zero at a first column tile, else from what the
    point before left. -/
def accAfter (c : Dev nD) : (n : ℕ) → n < cfg0.N → Vec F S512x1 .f32
  | 0, hn => k0_pay2 (grid0.coords ⟨0, hn⟩) (ltile m c ⟨0, hn⟩) (xtile m c ⟨0, hn⟩) (k0_pay1 (F := F))
  | n + 1, hn =>
    if (n + 1) % 16 = 0 then
      k0_pay2 (grid0.coords ⟨n + 1, hn⟩) (ltile m c ⟨n + 1, hn⟩) (xtile m c ⟨n + 1, hn⟩) (k0_pay1 (F := F))
    else
      k0_pay2 (grid0.coords ⟨n + 1, hn⟩) (ltile m c ⟨n + 1, hn⟩) (xtile m c ⟨n + 1, hn⟩) (accAfter c n (Nat.lt_of_succ_lt hn))

theorem accAfter_first (c : Dev nD) (t : Fin cfg0.N) (h : t.val % 16 = 0) :
    accAfter m c t.val t.isLt = k0_pay2 (grid0.coords t) (ltile m c t) (xtile m c t) (k0_pay1 (F := F)) := by
  obtain ⟨n, hn⟩ := t
  cases n with
  | zero => rfl
  | succ n => exact (if_pos h).trans rfl

theorem accAfter_next (c : Dev nD) (t : Fin cfg0.N) (h : ¬t.val % 16 = 0) :
    accAfter m c t.val t.isLt
      = k0_pay2 (grid0.coords t) (ltile m c t) (xtile m c t) (accAfter m c (t.val - 1) (Nat.lt_of_le_of_lt (Nat.sub_le _ _) t.isLt)) := by
  obtain ⟨n, hn⟩ := t
  cases n with
  | zero => exact absurd (Nat.zero_mod _) h
  | succ n => exact (if_neg h).trans rfl

/-- The kernel's invariant before point `n`: before the first point the accumulator holds anything; afterwards what the
    point before left. Beside it the core's random-number register, at some state. -/
def PhiS (c : Dev nD) : (n : ℕ) → n ≤ cfg0.N → sProp 𝕄
  | 0, _ => Pipeline.ΦA spec0 c
  | n + 1, hn => iprop(iprop(owns (c : Thread nD τ) scM fullShare (accAfter m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAfter m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAfter m c (n - 1) (by omega))) ∗ (∃ r, prngReg c r)) := by
  cases n with
  | zero => exact absurd rfl hz
  | succ n => rfl

/-- The region's invariant as the launch hands it over: the accumulator at some contents, the register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The launch's proof data -/

/-- After the body at point `t`: the matrix's staging buffer holds the tile (stated inside the matrix), the labels' their
    block, the result's the accumulator's new contents (consulted at the last column tile only). -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => accAfter m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = xtile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = accAfter m c t.val t.isLt := by dsimp only [dats]

/-- The matrix's window is fetched at every point: its buffer holds the tile's part inside the matrix, and beyond it
    whatever the fetch left (`d`). -/
theorem before0 (c : Dev nD) (t : Fin cfg0.N) (d) :
    (dats m 0 c).before 0 t d = win0_0.fill (grid0.coords t) d (xblk m c t) := by
  unfold Dat.before; rw [if_pos (fetch0_0 t)]; rfl
/-- The labels' buffer holds the row tile's labels at every point, fetched there or not. -/
theorem before1 (c : Dev nD) (t : Fin cfg0.N) (d) : (dats m 0 c).before 1 t d = ltile m c t :=
  before0_1_of m (dats m 0 c) (A_eq m c 1) (after1 m c) t d

/-- The labels of a tile are labels of the array. -/
theorem ltile_ok (hl : LabelsOk m) (c : Dev nD) (t : Fin cfg0.N) (r : S512.Idx) : (ltile m c t r).toNat < 50257 := by
  unfold ltile iblk
  rw [View.read_apply]
  exact hl c _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the matrix's buffer described inside the matrix only, the labels' unchanged, the result's
    untouched away from the last column tile and at the accumulator's contents there. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves0 (c : Dev nD) (t : Fin cfg0.N) :
    (dats m 0 c).leaves 0 t
      = iprop(∃ d, owns (c : Thread nD τ) (ms0 t) fullShare (win0_0.fill (grid0.coords t) d (xblk m c t))) := by
  have e : (dats m 0 c).leaves 0 t = iprop(∃ d, owns (c : Thread nD τ) (ms0 t) fullShare
      (win0_0.fill (grid0.coords t) d (win0_0.cut (grid0.coords t) ((dats m 0 c).after 0 t)))) := rfl
  rw [e, after0]; unfold xtile; rw [win0_0.cut_fill]

theorem leaves1 (c : Dev nD) (t : Fin cfg0.N) :
    (dats m 0 c).leaves 1 t = owns (c : Thread nD τ) (ms1 t) fullShare (ltile m c t) := by
  have e : (dats m 0 c).leaves 1 t = owns (c : Thread nD τ) (ms1 t) fullShare ((dats m 0 c).after 1 t) := rfl
  rw [e, after1]; rfl

theorem leaves2_idle (c : Dev nD) (t : Fin cfg0.N) (h : ¬isLast (grid0.coords t)) :
    (dats m 0 c).leaves 2 t = iprop(∃ d, owns (c : Thread nD τ) (ms2 t) fullShare ((dats m 0 c).before 2 t d)) :=
  Dat.leaves_idle (dats m 0 c) 2 t (result_idle t h) (result_kept t h)

theorem leaves2_live (c : Dev nD) (t : Fin cfg0.N) (h : isLast (grid0.coords t)) :
    (dats m 0 c).leaves 2 t = owns (c : Thread nD τ) (ms2 t) fullShare (accAfter m c t.val t.isLt) := by
  unfold Dat.leaves
  rw [result_live t h, after2]

set_option maxHeartbeats 1600000 in
/-- The body at any point, by the case its column tile is in. -/
theorem sound_body (hl : LabelsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1]
  simp only [before0, before1]
  -- the accumulator's new contents do not depend on what the fetch left beyond the matrix's last column
  have hind : ∀ d xs, k0_pay2 (grid0.coords t) (ltile m c t) (win0_0.fill (grid0.coords t) d (xblk m c t)) xs
      = k0_pay2 (grid0.coords t) (ltile m c t) (xtile m c t) xs :=
    fun d xs => pay2_fill_indep _ _ (ltile_ok m hl c t) _ _ _ _
  by_cases h0 : t.val % 16 = 0
  · have hf : isFirst (grid0.coords t) := (first_iff t).mpr h0
    have hnl : ¬isLast (grid0.coords t) := fun h => by have := (last_iff t).mp h; omega
    rw [leaves2_idle m c t hnl, accAfter_first m c t h0]
    by_cases hz : t.val = 0
    · rw [PhiS_castSucc m c t, PhiS_zero m c _ _ hz, PhiA_eq]
      iintro ⟨⟨⟨%xs, HS⟩, Hg⟩, Ho, ⟨%d0, H0⟩, ⟨%d1, H1⟩, ⟨%d2, H2⟩⟩
      rw [← hind d0]
      iapply (run_first c (grid0.coords t) (ms0 t) (hs0 t) (ms1 t) (hs1 t) (ms2 t) (hs2 t) scM (Memref.isWhole_whole _) hf hnl _ _ _ xs Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexists d2; iexact H2
    · rw [PhiS_castSucc m c t, PhiS_pos m c _ _ hz]
      iintro ⟨⟨HS, Hg⟩, Ho, ⟨%d0, H0⟩, ⟨%d1, H1⟩, ⟨%d2, H2⟩⟩
      rw [← hind d0]
      iapply (run_first c (grid0.coords t) (ms0 t) (hs0 t) (ms1 t) (hs1 t) (ms2 t) (hs2 t) scM (Memref.isWhole_whole _) hf hnl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexists d2; iexact H2
  · have hnf : ¬isFirst (grid0.coords t) := fun h => h0 ((first_iff t).mp h)
    have hz : t.val ≠ 0 := fun h => h0 (by rw [h])
    rw [PhiS_castSucc m c t, PhiS_pos m c _ _ hz, accAfter_next m c t h0]
    by_cases h1 : t.val % 16 = 15
    · have hla : isLast (grid0.coords t) := (last_iff t).mpr h1
      rw [leaves2_live m c t hla, accAfter_next m c t h0]
      iintro ⟨⟨HS, Hg⟩, Ho, ⟨%d0, H0⟩, ⟨%d1, H1⟩, ⟨%d2, H2⟩⟩
      rw [← hind d0]
      iapply (run_last c (grid0.coords t) (ms0 t) (hs0 t) (ms1 t) (hs1 t) (ms2 t) (hs2 t) scM (Memref.isWhole_whole _) hnf hla _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexact H2
    · have hnl : ¬isLast (grid0.coords t) := fun h => h1 ((last_iff t).mp h)
      rw [leaves2_idle m c t hnl]
      iintro ⟨⟨HS, Hg⟩, Ho, ⟨%d0, H0⟩, ⟨%d1, H1⟩, ⟨%d2, H2⟩⟩
      rw [← hind d0]
      iapply (run_middle c (grid0.coords t) (ms0 t) (hs0 t) (ms1 t) (hs1 t) (ms2 t) (hs2 t) scM (Memref.isWhole_whole _) hnf hnl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexists d2; iexact H2

/-- The library's body obligation, at every point. -/
theorem body_obligation (hl : LabelsOk m) (c : Dev nD) :
    BodyObligationLoose (dats (F := F) m 0 c) (defs₀ (F := F)) Variants.none () Set.univ := fun t => by
  rw [bigSep_W0, bigSep_W0]
  exact sound_body m hl c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's contents are forgotten. -/
theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run and the frame -/

set_option backward.isDefEq.respectTransparency.types false in
/-- Under the label range: every weakly fair execution of the program terminates, and ends with every array of the launch
    at what the proof data compute and every other buffer as the host operations after the launch leave it. -/
theorem run_main (hl : LabelsOk m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hl c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, under the label range: the program runs to the end, faults nowhere and leaves both arguments as they were. -/
theorem frame (hl : LabelsOk m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hl)

end Cert.Kernel.Body

end
-- ==== Proof.KernelIdeal.Run.lean ====
/-
  The kernel body at one grid point, as a Hoare triple over ANY four whole VMEM buffers: the staged tile of the
  matrix (512 rows by 3200 columns), the staged 512 labels, the staged 512-by-1 result block and the 512-by-1
  accumulator the kernel keeps between grid points.

  A grid point is a pair (row tile, column tile). The body compares each label, shifted by the column tile's offset,
  with the column numbers 0 … 3199, keeps the matrix entry where they agree and zero elsewhere, sums each row of
  that, and adds the row sums to the accumulator. At the first column tile the accumulator is first set to zero; at
  the last column tile the accumulator, once updated, is copied to the result block. So there are three cases,
  according to the two conditions on the column tile's number; in each the triple names what every buffer holds
  afterwards as a function of what it held before (the accumulator's new contents is the body's one arithmetic
  payload, `k0_pay2`).
-/
import proofs.«424218_j71167608095256_3_alg».proof.Proof.Gen.KernelIdeal.Launch
import proofs.«424218_j71167608095256_3_alg».proof.Proof.Gen.KernelIdeal.Skeleton
import proofs.«424218_j71167608095256_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The column tile is the first one (its number is 0), as the body tests it. -/
abbrev isFirst (i : grid0.Coords) : Prop :=
  (Scalar.cmpi .ne (Scalar.extui (Scalar.cmpi .eq (BitVec.ofNat 32 (i 1).val) 0#32)) 0#32) = 1#1
/-- The column tile is the last one (its number is 15), as the body tests it. -/
abbrev isLast (i : grid0.Coords) : Prop := k0_cond2 i = 1#1

theorem zero2 : (![0, 0] : Fin 2 → Nat) = fun _ => 0 := funext fun a => by fin_cases a <;> rfl
theorem zero1 : (![0] : Fin 1 → Nat) = fun _ => 0 := funext fun a => by fin_cases a <;> rfl

set_option maxHeartbeats 1000000 in
/-- A middle column tile (neither first nor last): the accumulator gains the tile's row sums; nothing else changes. -/
theorem run_middle (c : Dev nD) (i : grid0.Coords)
    (arg2 : Memref sig .tc .vmem S512x3200 .f32) (harg2 : arg2.IsWhole) (arg3 : Memref sig .tc .vmem S512 .i32) (harg3 : arg3.IsWhole)
    (arg4 : Memref sig .tc .vmem S512x1 .f32) (harg4 : arg4.IsWhole) (arg5 : Memref sig .tc .vmem S512x1 .f32) (harg5 : arg5.IsWhole)
    (hc0 : ¬isFirst i) (hc1 : ¬isLast i)
    (x0 : Vec F S512x3200 .f32) (x1 : Vec F S512 .i32) (x2 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare xs
          ∗ (iprop(owns (c : Thread nD τ) arg2 fullShare x0 ∗ owns (c : Thread nD τ) arg3 fullShare x1 ∗ owns (c : Thread nD τ) arg4 fullShare x2
                ∗ owns (c : Thread nD τ) arg5 fullShare (k0_pay2 i x1 x0 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [View.read_writes_eq_canon _ _ _ (fun y => ⟨_, List.mem_singleton_self _, View.mem_set_unit_zero zero2 Facts₀.inb_S512x1_S512x1_0_0 y⟩),
    View.canon_unit_zero zero2]
  simp only [View.readAt_eq_ld, harg2.read_unread, harg3.read_unread, harg5.read_unread,
    View.ld_unit_zero (S := S512x3200) zero2, View.ld_unit_zero (S := S512) zero1, View.ld_unit_zero (S := S512x1) zero2]

set_option maxHeartbeats 1000000 in
/-- The first column tile: the accumulator is set to zero and then gains the tile's row sums, whatever it held. -/
theorem run_first (c : Dev nD) (i : grid0.Coords)
    (arg2 : Memref sig .tc .vmem S512x3200 .f32) (harg2 : arg2.IsWhole) (arg3 : Memref sig .tc .vmem S512 .i32) (harg3 : arg3.IsWhole)
    (arg4 : Memref sig .tc .vmem S512x1 .f32) (harg4 : arg4.IsWhole) (arg5 : Memref sig .tc .vmem S512x1 .f32) (harg5 : arg5.IsWhole)
    (hc0 : isFirst i) (hc1 : ¬isLast i)
    (x0 : Vec F S512x3200 .f32) (x1 : Vec F S512 .i32) (x2 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare xs
          ∗ (iprop(owns (c : Thread nD τ) arg2 fullShare x0 ∗ owns (c : Thread nD τ) arg3 fullShare x1 ∗ owns (c : Thread nD τ) arg4 fullShare x2
                ∗ owns (c : Thread nD τ) arg5 fullShare (k0_pay2 i x1 x0 (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [View.read_writes_eq_canon _ _ _ (fun y => ⟨_, List.mem_cons_self, View.mem_set_unit_zero zero2 Facts₀.inb_S512x1_S512x1_0_0 y⟩),
    View.canon_cons_unit_zero zero2]
  simp only [View.readAt_eq_ld, harg2.read_unread, harg3.read_unread,
    View.ld_unit_zero (S := S512x3200) zero2, View.ld_unit_zero (S := S512) zero1,
    View.readCov_unit_zero (S := S512x1) _ zero2]

set_option maxHeartbeats 1000000 in
/-- The last column tile: the accumulator gains the tile's row sums, and its new contents are copied to the result block. -/
theorem run_last (c : Dev nD) (i : grid0.Coords)
    (arg2 : Memref sig .tc .vmem S512x3200 .f32) (harg2 : arg2.IsWhole) (arg3 : Memref sig .tc .vmem S512 .i32) (harg3 : arg3.IsWhole)
    (arg4 : Memref sig .tc .vmem S512x1 .f32) (harg4 : arg4.IsWhole) (arg5 : Memref sig .tc .vmem S512x1 .f32) (harg5 : arg5.IsWhole)
    (hc0 : ¬isFirst i) (hc1 : isLast i)
    (x0 : Vec F S512x3200 .f32) (x1 : Vec F S512 .i32) (x2 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare xs
          ∗ (iprop(owns (c : Thread nD τ) arg2 fullShare x0 ∗ owns (c : Thread nD τ) arg3 fullShare x1
                ∗ owns (c : Thread nD τ) arg4 fullShare (k0_pay2 i x1 x0 xs)
                ∗ owns (c : Thread nD τ) arg5 fullShare (k0_pay2 i x1 x0 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero zero2 Facts₀.inb_S512x1_S512x1_0_0 y⟩),
      View.canon_unit_zero zero2]
    simp only [View.readAt_eq_ld, harg2.read_unread, harg3.read_unread, harg5.read_unread,
      View.ld_unit_zero (S := S512x3200) zero2, View.ld_unit_zero (S := S512) zero1, View.ld_unit_zero (S := S512x1) zero2,
      View.readCov_unit_zero (S := S512x1) _ zero2]
  iexists _; isplitr
  swap; · iexact HS
  ipureintro
  sl_unfold_words
  rw [View.read_writes_eq_canon _ _ _ (fun y => ⟨_, List.mem_singleton_self _, View.mem_set_unit_zero zero2 Facts₀.inb_S512x1_S512x1_0_0 y⟩),
    View.canon_unit_zero zero2]
  simp only [View.readAt_eq_ld, harg2.read_unread, harg3.read_unread, harg5.read_unread,
    View.ld_unit_zero (S := S512x3200) zero2, View.ld_unit_zero (S := S512) zero1, View.ld_unit_zero (S := S512x1) zero2,
    View.readCov_unit_zero (S := S512x1) _ zero2]

end Cert.KernelIdeal.Body

end
-- ==== Proof.KernelIdeal.Tile.lean ====
/-
  The accumulator's update never looks at the part of a column tile that hangs over the matrix's last column.

  The matrix has 50257 columns and a column tile has 3200, so the sixteenth tile (columns 48000 … 51199) overhangs the
  matrix by 943 columns; what the staged tile holds there is not determined.  The body keeps a tile entry only where
  the tile's column number equals the row's label minus the tile's first column.  A label in 0 … 50256 can therefore
  only keep a column that lies inside the matrix.  So the update is the same whatever the overhang holds: this is what
  lets the accumulator's contents be named as a function of the matrix and the labels alone.
-/
import proofs.«424218_j71167608095256_3_alg».proof.Proof.Gen.KernelIdeal.Skeleton
import Idealize.ShloMosaic.Lib.Pipeline

set_option maxRecDepth 16384

noncomputable section

namespace Cert.KernelIdeal.Body

open Cert.KernelIdeal Cert.KernelIdeal.Gen
open Idealize.ShloMosaic Idealize.ShloMosaic.Pipeline

variable {F : FTy → Type} [FloatOps F]

/-- Where the tile's column number equals the row's label less the tile's first column (as 32-bit words). -/
def colMask (i : grid0.Coords) (v4 : IVec S512 32) : IVec S512x3200 1 :=
  cmpi .eq (iota .tc S512x3200 32 [1] Facts₀.iota_S512x3200_d1_w32)
    (broadcastTo S512x3200 (subi (shapeCast S512x1 v4 Facts₀.shapeCasts_S512_S512x1)
      (broadcast S512x1 (Scalar.muli (BitVec.ofNat 32 (i 1).val) 3200#32))) Facts₀.broadcasts_S512x1_S512x3200)

/-- The accumulator's new contents from the tile with the unkept entries already replaced by zero: each row summed,
    added to the old contents. -/
def ofKept (sel : Vec F S512x3200 .f32) (v16 : Vec F S512x1 .f32) : FVec F S512x1 .f32 :=
  shapeCast S512x1 (addf v16 (shapeCast S512x1 (multiReduction .add [1] S512 sel 0x00000000#32 Facts₀.reduces_S512x3200_S512 (.inl rfl) rfl)
    Facts₀.shapeCasts_S512_S512x1)) Facts₀.shapeCasts_S512x1_S512x1

/-- The body's payload is that function of the kept entries. -/
theorem pay2_eq (i : grid0.Coords) (v4 : Vec F S512 .i32) (v11 : Vec F S512x3200 .f32) (v16 : Vec F S512x1 .f32) :
    k0_pay2 i v4 v11 v16
      = ofKept (select (colMask i v4) v11 (broadcast S512x3200 (Scalar.ofBits .f32 0x00000000#32))) v16 := rfl

/-- If column `cc` of tile `j` equals, as 32-bit words, the label less the tile's first column, then the label IS
    matrix column `cc + 3200 j` — nothing wraps, since cc < 3200, j < 16 and the label is below 50257 — so that column
    is a column of the matrix. -/
theorem col_lt_of_match (cc j : Nat) (w : BitVec 32) (hcc : cc < 3200) (hj : j < 16) (hw : w.toNat < 50257)
    (h : BitVec.ofNat 32 cc = IntOp.subi w (Scalar.muli (BitVec.ofNat 32 j) 3200#32)) : cc + 3200 * j < 50257 := by
  have e := congrArg BitVec.toNat h
  simp only [IntOp.subi, Scalar.muli, IntOp.muli, BitVec.toNat_sub, BitVec.toNat_mul, BitVec.toNat_ofNat] at e
  omega

/-- A kept position lies in the part of the tile that is inside the matrix. -/
theorem moved_of_kept (i : grid0.Coords) (v4 : Vec F S512 .i32) (hv4 : ∀ r, (v4 r).toNat < 50257) (y : S512x3200.Idx)
    (hk : colMask i v4 y = 1#1) : win0_0.moved i y = true := by
  rw [win0_0.moved_iff]
  have hj : (i 1).val < 16 := (i 1).isLt
  have hi : (i 0).val < 8 := (i 0).isLt
  have hy0 : (y 0).val < 512 := (y 0).isLt
  have hy1 : (y 1).val < 3200 := (y 1).isLt
  unfold colMask at hk
  have hk' := IntOp.cmpi_eq.mp hk
  have e1 : iota .tc S512x3200 32 [1] Facts₀.iota_S512x3200_d1_w32 y = BitVec.ofNat 32 (y 1).val := by
    show BitVec.ofNat 32 (0 * S512x3200.size 1 + (y 1).val) = _
    rw [Nat.zero_mul, Nat.zero_add]
  rw [e1] at hk'
  have hcol : (y 1).val + 3200 * (i 1).val < 50257 := col_lt_of_match (y 1).val (i 1).val _ hy1 hj (hv4 _) hk'
  intro a
  match a with
  | ⟨0, _⟩ =>
    have hc := win0_0.hclip i (0 : Fin 2)
    change Clip.Ok (BitVec.ofNat 32 (i 0).val).toNat 512 4096 (win0_0.clip i (0 : Fin 2)) at hc
    show (y 0).val < (win0_0.clip i (0 : Fin 2)).extent 512
    rw [BitVec.toNat_ofNat] at hc
    generalize win0_0.clip i (0 : Fin 2) = cl at hc ⊢
    cases cl with
    | none => exact hy0
    | some n =>
      obtain ⟨h1, h2, h3⟩ := hc
      show (y 0).val < n
      have : (i 0).val % 2 ^ 32 = (i 0).val := Nat.mod_eq_of_lt (by omega)
      omega
  | ⟨1, _⟩ =>
    have hc := win0_0.hclip i (1 : Fin 2)
    change Clip.Ok (BitVec.ofNat 32 (i 1).val).toNat 3200 50257 (win0_0.clip i (1 : Fin 2)) at hc
    show (y 1).val < (win0_0.clip i (1 : Fin 2)).extent 3200
    rw [BitVec.toNat_ofNat] at hc
    generalize win0_0.clip i (1 : Fin 2) = cl at hc ⊢
    cases cl with
    | none => exact hy1
    | some n =>
      obtain ⟨h1, h2, h3⟩ := hc
      show (y 1).val < n
      have : (i 1).val % 2 ^ 32 = (i 1).val := Nat.mod_eq_of_lt (by omega)
      omega

/-- Keeping entries of a tile does not depend on what fills the tile outside the matrix. -/
theorem kept_fill_indep (i : grid0.Coords) (v4 : Vec F S512 .i32) (hv4 : ∀ r, (v4 r).toNat < 50257)
    (blk : (win0_0.xblock i).Idx → Elt F .f32) (d d' : S512x3200.Idx → Elt F .f32) (z : Vec F S512x3200 .f32) :
    select (colMask i v4) (win0_0.fill i d blk) z = select (colMask i v4) (win0_0.fill i d' blk) z := by
  funext y
  show Scalar.select (colMask i v4 y) (win0_0.fill i d blk y) (z y) = Scalar.select (colMask i v4 y) (win0_0.fill i d' blk y) (z y)
  by_cases hk : colMask i v4 y = 1#1
  · have hm := moved_of_kept i v4 hv4 y hk
    have e : win0_0.fill i d blk y = win0_0.fill i d' blk y := by
      unfold Window.fill
      rw [dif_pos hm, dif_pos hm]
    rw [e]
  · have hk0 : colMask i v4 y = 0#1 := by
      revert hk; generalize colMask i v4 y = b; revert b; decide
    rw [hk0]; rfl

/-- So neither does the accumulator's update. -/
theorem pay2_fill_indep (i : grid0.Coords) (v4 : Vec F S512 .i32) (hv4 : ∀ r, (v4 r).toNat < 50257)
    (blk : (win0_0.xblock i).Idx → Elt F .f32) (d d' : S512x3200.Idx → Elt F .f32) (v16 : Vec F S512x1 .f32) :
    k0_pay2 i v4 (win0_0.fill i d blk) v16 = k0_pay2 i v4 (win0_0.fill i d' blk) v16 := by
  rw [pay2_eq, pay2_eq, kept_fill_indep i v4 hv4 blk d d']

end Cert.KernelIdeal.Body

end
-- ==== Proof.KernelIdeal.Frame.lean ====
/-
  The frame of the program around its one kernel launch, and what the launch leaves in the result array.

  The grid has 8 row tiles by 16 column tiles, visited row tile by row tile.  For each row tile the kernel keeps a
  512-by-1 accumulator: set to zero at the first column tile, increased by each column tile's row sums of the entries
  the labels select, copied to the result block at the last column tile (the only point whose result block is written
  back).  This module names what the accumulator holds after every grid point (`accAfter`, by recursion on the
  point), carries it through the launch as the kernel's invariant between points, and proves the per-point obligation
  from the three body cases — under the hypothesis that every label is a column of the matrix, which is what makes the
  contents independent of the words the last column tile holds beyond the matrix's last column.
-/
import proofs.«424218_j71167608095256_3_alg».proof.Proof.KernelIdeal.Run
import proofs.«424218_j71167608095256_3_alg».proof.Proof.KernelIdeal.Tile
import proofs.«424218_j71167608095256_3_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the 128 grid points -/

/-- The first column tile is at the points ≡ 0 (mod 16), the last at the points ≡ 15. -/
theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)
/-- Away from the last column tile the result block is neither stored into nor written back. -/
theorem result_idle : ∀ t : Fin cfg0.N, ¬isLast (grid0.coords t) → cfg0.idle 2 (grid0.coords t) = true := by decide +kernel
theorem result_kept : ∀ t : Fin cfg0.N, ¬isLast (grid0.coords t) → (cfg0.win 2).flush t = false := by decide +kernel
/-- At the last column tile it is stored into. -/
theorem result_live : ∀ t : Fin cfg0.N, isLast (grid0.coords t) → cfg0.idle 2 (grid0.coords t) = false := by decide +kernel

/-! ## What the kernel's buffers hold -/

/-- Every label, as the launch finds the label array, is a column of the matrix. -/
def LabelsOk : Prop := ∀ (c : Dev nD) (r : S4096.Idx), (V m c main_arg1 r).toNat < 50257

/-- The staging buffers the pipeline hands the body at point `t`, and the accumulator. -/
abbrev ms0 (t : Fin cfg0.N) : Memref sig .tc .vmem S512x3200 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S512 .i32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S512x1 .f32 := win0_2.stage (cfg0.slots t 2)
abbrev hs2 (t : Fin cfg0.N) : (ms2 t).IsWhole := Facts₀.hstage0_2 ((cfg0.slots t 2).cast Facts₀.nbuf0_2)
abbrev scM : Memref sig .tc .vmem S512x1 .f32 := Memref.whole cc0_scratch0

/-- The part of the matrix's tile at point `t` that lies inside the matrix. -/
def xblk (c : Dev nD) (t : Fin cfg0.N) : (win0_0.xblock (grid0.coords t)).Idx → Elt F .f32 :=
  (win0_0.blk t).view.read (Elt F) (V m c main_arg0)
/-- The tile filled out with zeros beyond the matrix's last column. -/
def xtile (c : Dev nD) (t : Fin cfg0.N) : Vec F S512x3200 .f32 :=
  win0_0.fill (grid0.coords t) (fun _ => Scalar.ofBits .f32 0x00000000#32) (xblk m c t)
/-- The 512 labels of the row tile at point `t`. -/
def ltile (c : Dev nD) (t : Fin cfg0.N) : Vec F S512 .i32 := iblk m c 1 t

/-- THE ACCUMULATION: the accumulator after the body at point `n` — from zero at a first column tile, else from what the
    point before left. -/
def accAfter (c : Dev nD) : (n : ℕ) → n < cfg0.N → Vec F S512x1 .f32
  | 0, hn => k0_pay2 (grid0.coords ⟨0, hn⟩) (ltile m c ⟨0, hn⟩) (xtile m c ⟨0, hn⟩) (k0_pay1 (F := F))
  | n + 1, hn =>
    if (n + 1) % 16 = 0 then
      k0_pay2 (grid0.coords ⟨n + 1, hn⟩) (ltile m c ⟨n + 1, hn⟩) (xtile m c ⟨n + 1, hn⟩) (k0_pay1 (F := F))
    else
      k0_pay2 (grid0.coords ⟨n + 1, hn⟩) (ltile m c ⟨n + 1, hn⟩) (xtile m c ⟨n + 1, hn⟩) (accAfter c n (Nat.lt_of_succ_lt hn))

theorem accAfter_first (c : Dev nD) (t : Fin cfg0.N) (h : t.val % 16 = 0) :
    accAfter m c t.val t.isLt = k0_pay2 (grid0.coords t) (ltile m c t) (xtile m c t) (k0_pay1 (F := F)) := by
  obtain ⟨n, hn⟩ := t
  cases n with
  | zero => rfl
  | succ n => exact (if_pos h).trans rfl

theorem accAfter_next (c : Dev nD) (t : Fin cfg0.N) (h : ¬t.val % 16 = 0) :
    accAfter m c t.val t.isLt
      = k0_pay2 (grid0.coords t) (ltile m c t) (xtile m c t) (accAfter m c (t.val - 1) (Nat.lt_of_le_of_lt (Nat.sub_le _ _) t.isLt)) := by
  obtain ⟨n, hn⟩ := t
  cases n with
  | zero => exact absurd (Nat.zero_mod _) h
  | succ n => exact (if_neg h).trans rfl

/-- The kernel's invariant before point `n`: before the first point the accumulator holds anything; afterwards what the
    point before left. Beside it the core's random-number register, at some state. -/
def PhiS (c : Dev nD) : (n : ℕ) → n ≤ cfg0.N → sProp 𝕄
  | 0, _ => Pipeline.ΦA spec0 c
  | n + 1, hn => iprop(iprop(owns (c : Thread nD τ) scM fullShare (accAfter m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAfter m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAfter m c (n - 1) (by omega))) ∗ (∃ r, prngReg c r)) := by
  cases n with
  | zero => exact absurd rfl hz
  | succ n => rfl

/-- The region's invariant as the launch hands it over: the accumulator at some contents, the register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The launch's proof data -/

/-- After the body at point `t`: the matrix's staging buffer holds the tile (stated inside the matrix), the labels' their
    block, the result's the accumulator's new contents (consulted at the last column tile only). -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => accAfter m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = xtile m c t := by dsimp only [dats]
theorem after1 (c : Dev nD) (t : Fin cfg0.N) : (dats m 0 c).after 1 t = iblk m c 1 t := by dsimp only [dats]
theorem after2 (c : Dev nD) (t : Fin cfg0.N) : (dats m 0 c).after 2 t = accAfter m c t.val t.isLt := by dsimp only [dats]

/-- The matrix's window is fetched at every point: its buffer holds the tile's part inside the matrix, and beyond it
    whatever the fetch left (`d`). -/
theorem before0 (c : Dev nD) (t : Fin cfg0.N) (d) :
    (dats m 0 c).before 0 t d = win0_0.fill (grid0.coords t) d (xblk m c t) := by
  unfold Dat.before; rw [if_pos (fetch0_0 t)]; rfl
/-- The labels' buffer holds the row tile's labels at every point, fetched there or not. -/
theorem before1 (c : Dev nD) (t : Fin cfg0.N) (d) : (dats m 0 c).before 1 t d = ltile m c t :=
  before0_1_of m (dats m 0 c) (A_eq m c 1) (after1 m c) t d

/-- The labels of a tile are labels of the array. -/
theorem ltile_ok (hl : LabelsOk m) (c : Dev nD) (t : Fin cfg0.N) (r : S512.Idx) : (ltile m c t r).toNat < 50257 := by
  unfold ltile iblk
  rw [View.read_apply]
  exact hl c _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: the matrix's buffer described inside the matrix only, the labels' unchanged, the result's
    untouched away from the last column tile and at the accumulator's contents there. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves0 (c : Dev nD) (t : Fin cfg0.N) :
    (dats m 0 c).leaves 0 t
      = iprop(∃ d, owns (c : Thread nD τ) (ms0 t) fullShare (win0_0.fill (grid0.coords t) d (xblk m c t))) := by
  have e : (dats m 0 c).leaves 0 t = iprop(∃ d, owns (c : Thread nD τ) (ms0 t) fullShare
      (win0_0.fill (grid0.coords t) d (win0_0.cut (grid0.coords t) ((dats m 0 c).after 0 t)))) := rfl
  rw [e, after0]; unfold xtile; rw [win0_0.cut_fill]

theorem leaves1 (c : Dev nD) (t : Fin cfg0.N) :
    (dats m 0 c).leaves 1 t = owns (c : Thread nD τ) (ms1 t) fullShare (ltile m c t) := by
  have e : (dats m 0 c).leaves 1 t = owns (c : Thread nD τ) (ms1 t) fullShare ((dats m 0 c).after 1 t) := rfl
  rw [e, after1]; rfl

theorem leaves2_idle (c : Dev nD) (t : Fin cfg0.N) (h : ¬isLast (grid0.coords t)) :
    (dats m 0 c).leaves 2 t = iprop(∃ d, owns (c : Thread nD τ) (ms2 t) fullShare ((dats m 0 c).before 2 t d)) :=
  Dat.leaves_idle (dats m 0 c) 2 t (result_idle t h) (result_kept t h)

theorem leaves2_live (c : Dev nD) (t : Fin cfg0.N) (h : isLast (grid0.coords t)) :
    (dats m 0 c).leaves 2 t = owns (c : Thread nD τ) (ms2 t) fullShare (accAfter m c t.val t.isLt) := by
  unfold Dat.leaves
  rw [result_live t h, after2]

set_option maxHeartbeats 1600000 in
/-- The body at any point, by the case its column tile is in. -/
theorem sound_body (hl : LabelsOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1]
  simp only [before0, before1]
  -- the accumulator's new contents do not depend on what the fetch left beyond the matrix's last column
  have hind : ∀ d xs, k0_pay2 (grid0.coords t) (ltile m c t) (win0_0.fill (grid0.coords t) d (xblk m c t)) xs
      = k0_pay2 (grid0.coords t) (ltile m c t) (xtile m c t) xs :=
    fun d xs => pay2_fill_indep _ _ (ltile_ok m hl c t) _ _ _ _
  by_cases h0 : t.val % 16 = 0
  · have hf : isFirst (grid0.coords t) := (first_iff t).mpr h0
    have hnl : ¬isLast (grid0.coords t) := fun h => by have := (last_iff t).mp h; omega
    rw [leaves2_idle m c t hnl, accAfter_first m c t h0]
    by_cases hz : t.val = 0
    · rw [PhiS_castSucc m c t, PhiS_zero m c _ _ hz, PhiA_eq]
      iintro ⟨⟨⟨%xs, HS⟩, Hg⟩, Ho, ⟨%d0, H0⟩, ⟨%d1, H1⟩, ⟨%d2, H2⟩⟩
      rw [← hind d0]
      iapply (run_first c (grid0.coords t) (ms0 t) (hs0 t) (ms1 t) (hs1 t) (ms2 t) (hs2 t) scM (Memref.isWhole_whole _) hf hnl _ _ _ xs Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexists d2; iexact H2
    · rw [PhiS_castSucc m c t, PhiS_pos m c _ _ hz]
      iintro ⟨⟨HS, Hg⟩, Ho, ⟨%d0, H0⟩, ⟨%d1, H1⟩, ⟨%d2, H2⟩⟩
      rw [← hind d0]
      iapply (run_first c (grid0.coords t) (ms0 t) (hs0 t) (ms1 t) (hs1 t) (ms2 t) (hs2 t) scM (Memref.isWhole_whole _) hf hnl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexists d2; iexact H2
  · have hnf : ¬isFirst (grid0.coords t) := fun h => h0 ((first_iff t).mp h)
    have hz : t.val ≠ 0 := fun h => h0 (by rw [h])
    rw [PhiS_castSucc m c t, PhiS_pos m c _ _ hz, accAfter_next m c t h0]
    by_cases h1 : t.val % 16 = 15
    · have hla : isLast (grid0.coords t) := (last_iff t).mpr h1
      rw [leaves2_live m c t hla, accAfter_next m c t h0]
      iintro ⟨⟨HS, Hg⟩, Ho, ⟨%d0, H0⟩, ⟨%d1, H1⟩, ⟨%d2, H2⟩⟩
      rw [← hind d0]
      iapply (run_last c (grid0.coords t) (ms0 t) (hs0 t) (ms1 t) (hs1 t) (ms2 t) (hs2 t) scM (Memref.isWhole_whole _) hnf hla _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexact H2
    · have hnl : ¬isLast (grid0.coords t) := fun h => h1 ((last_iff t).mp h)
      rw [leaves2_idle m c t hnl]
      iintro ⟨⟨HS, Hg⟩, Ho, ⟨%d0, H0⟩, ⟨%d1, H1⟩, ⟨%d2, H2⟩⟩
      rw [← hind d0]
      iapply (run_middle c (grid0.coords t) (ms0 t) (hs0 t) (ms1 t) (hs1 t) (ms2 t) (hs2 t) scM (Memref.isWhole_whole _) hnf hnl _ _ _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexists d0; iexact H0
      isplitl [H1]; · iexact H1
      iexists d2; iexact H2

/-- The library's body obligation, at every point. -/
theorem body_obligation (hl : LabelsOk m) (c : Dev nD) :
    BodyObligationLoose (dats (F := F) m 0 c) (defs₀ (F := F)) Variants.none () Set.univ := fun t => by
  rw [bigSep_W0, bigSep_W0]
  exact sound_body m hl c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's contents are forgotten. -/
theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run and the frame -/

set_option backward.isDefEq.respectTransparency.types false in
/-- Under the label range: every weakly fair execution of the program terminates, and ends with every array of the launch
    at what the proof data compute and every other buffer as the host operations after the launch leave it. -/
theorem run_main (hl : LabelsOk m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hl c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, under the label range: the program runs to the end, faults nowhere and leaves both arguments as they were. -/
theorem frame (hl : LabelsOk m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hl)

end Cert.KernelIdeal.Body

end
-- ==== Proof.KernelIdeal.TileValue.lean ====
/-
  One row of the accumulator after one column tile, at the exact reading.

  A grid point handles 512 rows and the 3200 columns 3200·j … 3200·j + 3199 of the matrix, j its second grid
  coordinate (0 ≤ j < 16).  For each row the body forms, in 32-bit words, local = label − 3200·j, keeps the tile's
  entry in column cc exactly where cc = local, replaces every other entry by zero, sums the row and adds the sum to the
  accumulator's old value.  A label is below 50257, cc below 3200 and j below 16, so nothing wraps: cc = local as
  words exactly when cc + 3200·j is the label as a number.  At most one column of the row is kept, so the row's sum
  is that one entry when the label's column lies in the tile, and zero when it does not.
-/
import proofs.«424218_j71167608095256_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.TileValue
open Idealize.ShloMosaic Idealize.ShloMosaic.ValueIdx Cert.KernelIdeal Cert.KernelIdeal.Gen

/-! ## Layout: a vector as a one-column matrix, and that column spread over many -/

/-- A vector of length `n` viewed as an `n × 1` matrix reads, at `(r, u)`, the vector at `r`: the row-major position
    of `(r, u)` is `r · 1 + u` and the unit coordinate `u` is `0`. -/
theorem col_cast_apply {α : Type} {n : Nat} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An `n × 1` matrix broadcast along its columns to `n × m` reads, at `(r, c)`, the one entry of row `r`. (If `n` is
    itself `1` the row axis is a unit axis too, and `r` is then `0`.) -/
theorem col_bcast_apply {α : Type} {n m : Nat} (x : (⟨2, ![n, 1]⟩ : Shape).Idx → α)
    (h : (⟨2, ![n, 1]⟩ : Shape).Broadcasts ⟨2, ![n, m]⟩) (r : Fin n) (c : Fin m) :
    broadcastTo ⟨2, ![n, m]⟩ x h (ix2 r c) = x (ix2 r (0 : Fin 1)) := by
  refine broadcastTo_apply x h (ix2 r c) (ix2 r (0 : Fin 1)) fun ax => ?_
  match ax with
  | ⟨0, _⟩ =>
    show r.val = if n = 1 then 0 else r.val
    split
    · have := r.isLt; omega
    · rfl
  | ⟨1, _⟩ => rfl

/-! ## The 32-bit arithmetic: no wrap-around in the range of the labels -/

/-- For a column number `cc < 3200`, a tile number `j < 16` and a label word `w` below 50257: `cc` equals
    `w − 3200·j` as 32-bit words exactly when `cc + 3200·j` is `w` as a number. Both `3200·j ≤ 48000` and
    `cc + 3200·j ≤ 51199` are far below `2³²`, so the product does not wrap, and the difference, which wraps when
    `w < 3200·j`, is then at least `2³² − 48000 > cc` and cannot be `cc`. -/
theorem word_match_iff (cc j : Nat) (w : BitVec 32) (hcc : cc < 3200) (hj : j < 16) (hw : w.toNat < 50257) :
    BitVec.ofNat 32 cc = w - BitVec.ofNat 32 j * 3200#32 ↔ cc + 3200 * j = w.toNat := by
  constructor
  · intro h
    have e := congrArg BitVec.toNat h
    simp only [BitVec.toNat_sub, BitVec.toNat_mul, BitVec.toNat_ofNat] at e
    omega
  · intro h
    apply BitVec.eq_of_toNat_eq
    simp only [BitVec.toNat_sub, BitVec.toNat_mul, BitVec.toNat_ofNat]
    omega

/-- A choice on the one-bit word of an equality test is the choice on the equality itself. -/
theorem select_ofBool_beq {α : Type} (x y : BitVec 32) (a b : α) :
    Scalar.select (BitVec.ofBool (x == y)) a b = if x = y then a else b := by
  by_cases h : x = y
  · rw [if_pos h, beq_iff_eq.2 h]; exact select_one a b
  · rw [if_neg h, beq_eq_false_iff_ne.2 h]; exact select_zero a b

/-! ## The zero block -/

/-- The zero block is zero at every row: the constant of the zero word, whose exact value is `0`. -/
theorem pay1_row (r : Fin 512) : k0_pay1 (F := Ideal) (ix2 r (0 : Fin 1)) = (0 : EReal) := by
  unfold k0_pay1
  rw [shapeCast_self]
  exact Ideal.ofBits_zero_f32

/-! ## The mask and the kept entries -/

/-- The mask at row `r`, tile column `c`: the column number `c` (the iota along the columns) compared, as 32-bit
    words, with row `r`'s label less `3200·j` (the labels as a column, broadcast over the tile's columns). -/
theorem mask_apply (i : grid0.Coords) (v4 : IVec S512 32) (r : Fin 512) (c : Fin 3200) :
    cmpi .eq (iota .tc S512x3200 32 [1] iota_S512x3200_d1_w32)
        (broadcastTo S512x3200
          (subi (shapeCast S512x1 v4 shapeCasts_S512_S512x1)
            (broadcast S512x1 (Scalar.muli (BitVec.ofNat 32 (i 1).val) 3200#32)))
          broadcasts_S512x1_S512x3200) (ix2 r c)
      = BitVec.ofBool (BitVec.ofNat 32 c.val == v4 (ix1 r) - BitVec.ofNat 32 (i 1).val * 3200#32) := by
  show IntOp.cmpi .eq (iota .tc S512x3200 32 [1] iota_S512x3200_d1_w32 (ix2 r c))
    (broadcastTo S512x3200 _ broadcasts_S512x1_S512x3200 (ix2 r c)) = _
  rw [iota_single_apply, col_bcast_apply]
  show IntOp.cmpi .eq _ (IntOp.subi (shapeCast S512x1 v4 shapeCasts_S512_S512x1 (ix2 r 0)) _) = _
  rw [col_cast_apply]
  rfl

/-- The tile after the selection, at row `r`, tile column `c`: the tile's entry when `c + 3200·j` is the row's label,
    and `0` otherwise. -/
theorem kept_apply (i : grid0.Coords) (v4 : Vec Ideal S512 .i32) (hv4 : ∀ r : Fin 512, (v4 (ix1 r)).toNat < 50257)
    (v11 : Vec Ideal S512x3200 .f32) (r : Fin 512) (c : Fin 3200) :
    select
        (cmpi .eq (iota .tc S512x3200 32 [1] iota_S512x3200_d1_w32)
          (broadcastTo S512x3200
            (subi (shapeCast S512x1 v4 shapeCasts_S512_S512x1)
              (broadcast S512x1 (Scalar.muli (BitVec.ofNat 32 (i 1).val) 3200#32)))
            broadcasts_S512x1_S512x3200))
        v11 (broadcast S512x3200 (FloatOps.ofBits (F := Ideal) FTy.f32 0x00000000#32)) (ix2 r c)
      = if c.val + 3200 * (i 1).val = (v4 (ix1 r)).toNat then v11 (ix2 r c) else 0 := by
  have hj : (i 1).val < 16 := (i 1).isLt
  rw [select_apply, mask_apply, broadcast_apply, select_ofBool_beq]
  by_cases h : c.val + 3200 * (i 1).val = (v4 (ix1 r)).toNat
  · rw [if_pos h, if_pos ((word_match_iff c.val (i 1).val _ c.isLt hj (hv4 r)).2 h)]
  · rw [if_neg h, if_neg (fun e => h ((word_match_iff c.val (i 1).val _ c.isLt hj (hv4 r)).1 e))]
    exact Ideal.ofBits_zero_f32

/-! ## One row of the new accumulator -/

/-- One row of the accumulator after a tile: the old value plus the tile's entry in the label's column, if that column
    is one of the tile's. The row's sum runs over the 3200 tile columns; column `c` contributes only when
    `c + 3200·j` is the label, which singles out `c = label − 3200·j` when the label lies in
    `3200·j … 3200·j + 3199` and no column at all when it does not. -/
theorem pay2_row (i : grid0.Coords) (v4 : Vec Ideal S512 .i32) (hv4 : ∀ r : Fin 512, (v4 (ix1 r)).toNat < 50257)
    (v11 : Vec Ideal S512x3200 .f32) (v16 : Vec Ideal S512x1 .f32) (r : Fin 512) :
    k0_pay2 (F := Ideal) i v4 v11 v16 (ix2 r (0 : Fin 1))
      = v16 (ix2 r (0 : Fin 1))
        + (if h : 3200 * (i 1).val ≤ (v4 (ix1 r)).toNat ∧ (v4 (ix1 r)).toNat < 3200 * (i 1).val + 3200
            then v11 (ix2 r ⟨(v4 (ix1 r)).toNat - 3200 * (i 1).val, by omega⟩) else 0) := by
  have hj : (i 1).val < 16 := (i 1).isLt
  have hw := hv4 r
  -- the source index over row `r` with column `k` inserted is `(r, k)`
  have hlift : ∀ k : Fin 3200, reduces_S512x3200_S512.lift (ix1 r) k = ix2 r k := fun k =>
    funext fun c => match c with | ⟨0, _⟩ => rfl | ⟨1, _⟩ => rfl
  unfold k0_pay2
  -- the outer cast keeps the shape; the sum is elementwise; the row sums are read as a column
  rw [shapeCast_self]
  show v16 (ix2 r 0) + shapeCast S512x1 _ shapeCasts_S512_S512x1 (ix2 r 0) = _
  rw [col_cast_apply]
  congr 1
  -- the lane sum from the zero word is the plain sum over the row's 3200 columns
  refine (Ideal.multiReduction_add_single _ _ _ _ _ (ix1 r)).trans ?_
  show ∑ k : Fin 3200, _ = _
  by_cases hin : 3200 * (i 1).val ≤ (v4 (ix1 r)).toNat ∧ (v4 (ix1 r)).toNat < 3200 * (i 1).val + 3200
  · -- the label's column is in the tile: only that column contributes
    rw [dif_pos hin]
    refine (Finset.sum_eq_single (⟨(v4 (ix1 r)).toNat - 3200 * (i 1).val, by omega⟩ : Fin 3200) ?_ ?_).trans ?_
    · intro k _ hk
      rw [hlift k, kept_apply i v4 hv4 v11 r k, if_neg]
      intro e
      exact hk (Fin.ext (by show k.val = (v4 (ix1 r)).toNat - 3200 * (i 1).val; omega))
    · intro h; exact absurd (Finset.mem_univ _) h
    · rw [hlift, kept_apply i v4 hv4 v11 r, if_pos]
      show (v4 (ix1 r)).toNat - 3200 * (i 1).val + 3200 * (i 1).val = _
      omega
  · -- the label's column is outside the tile: no column contributes
    rw [dif_neg hin]
    refine Finset.sum_eq_zero fun k _ => ?_
    rw [hlift k, kept_apply i v4 hv4 v11 r k, if_neg]
    intro e
    have hk : k.val < 3200 := k.isLt
    exact hin (by omega)

end Cert.KernelIdeal.TileValue
-- ==== Proof.KernelIdeal.TailValue.lean ====
/-
  The host's operations after the launch, at the exact reading: the result array summed over both axes, scaled and
  divided, as one closed expression in the array's 4096 entries.
-/
import proofs.«424218_j71167608095256_3_alg».proof.Proof.Gen.KernelIdeal
import Idealize.ShloMosaic.Lib.ValueIdx
import Idealize.ShloMosaic.Lib.IdealHost
import Idealize.ShloMosaic.PureOps.Ideal
import Idealize.ShloMosaic.PureOps.Ideal.Laws

set_option maxRecDepth 16384

noncomputable section

namespace Cert.KernelIdeal.TailValue
open Idealize.ShloMosaic Idealize.ShloMosaic.ValueIdx Cert.KernelIdeal
open scoped BigOperators

/-- The host's three operations after the launch, at the exact reading: the sum of the `4096 × 1` array over both
    axes from the zero word, times the word of `−2.0`, divided by the word `0x4D445100`. Every index of the array
    reduces to the result's one index, so the host's sum is the initial value plus the sum over all indices; an index
    is a row `R` and a column of the one-column axis, so that sum is the sum over the rows of the entry `(R, 0)`. The
    product and the quotient act on the one element. The three constants stay as their words. -/
theorem tail_value (g : FVec Ideal S4096x1 .f32) :
    Host.divf (F := Ideal) (mulf (constant S_ .f32 0xC0000000#32)
        (Host.reduceAdd g (constant S_ .f32 0x00000000#32) Facts₀.reducesTo_S4096x1_S_d0_1 Facts₀.h_S_))
        (constant S_ .f32 0x4D445100#32)
      = fun _ => Ideal.div (Ideal.ofBits .f32 0xC0000000#32 * (Ideal.ofBits .f32 0x00000000#32 + ∑ R : Fin 4096, g (ix2 R (0 : Fin 1))))
          (Ideal.ofBits .f32 0x4D445100#32) := by
  -- a row's sum over its one column is its one entry
  have hrow : ∀ R : Fin 4096, ∑ b : Fin 1, g (ix2 R b) = g (ix2 R (0 : Fin 1)) := fun R => Fin.sum_univ_one _
  funext j
  -- the quotient, the product and the constants read at the one index; the host's sum into rank 0 is the initial
  -- value plus the total sum, re-indexed by row and column
  rw [hostDivf_apply, mulf_apply, constant_apply, constant_apply, hostReduceAdd_apply,
    Ideal.hostReduceAdd_total _ (fun b => b.elim0), constant_apply, sum_idx2,
    Finset.sum_congr rfl fun R _ => hrow R]

end Cert.KernelIdeal.TailValue
-- ==== Proof.KernelIdeal.ResultArray.lean ====
/-
  What the launch leaves in the result array, from what the accumulator holds at the write-back points.

  The grid has 8 row tiles by 16 column tiles; point t is (row tile t / 16, column tile t mod 16).  The result
  array has 4096 rows and one column and is cut into eight blocks of 512 rows; the block of point t is block
  (t / 16, 0), so its row r is row 512 · (t / 16) + r of the array, and no block overhangs the array.  A block is
  written back exactly at the last column tile of its row tile, the points t ≡ 15 (mod 16), with what the staging
  buffer then holds: the accumulator after point t.

  So if at every such point the accumulator's row r is the picked entry of matrix row 512 · (t / 16) + r, each
  write-back writes the block of ONE function of the array's index — "row R ↦ the picked entry of row R" — and
  the eight blocks tile the array: row R lies in the block of point 16 · (R / 512) + 15.  The array therefore
  ends holding that function.
-/
import proofs.«424218_j71167608095256_3_alg».proof.Proof.KernelIdeal.Frame
import proofs.«424218_j71167608095256_3_alg».proof.Proof.Spec
import Idealize.ShloMosaic.Lib.Pipeline.Value
import Idealize.ShloMosaic.Lib.ValueIdx

noncomputable section

namespace Cert.KernelIdeal.ResultArray
open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result window's block index at point t is (t / 16, 0): decided over the 128 points. -/
theorem index2 : ∀ t : Fin cfg0.N, win0_2.index t 0 = t.val / 16 ∧ win0_2.index t 1 = 0 :=
  (by decide +kernel : ∀ t : Fin grid0.N, win0_2.index t 0 = t.val / 16 ∧ win0_2.index t 1 = 0)

/-- What a write-back point writes is its block of the function "row R ↦ the picked entry of row R": element
    (r, ·) of the block of point t sits at row (t / 16) · 512 + r of the array, and the accumulator's row r is that
    row's picked entry by hypothesis. -/
theorem flushed_eq (c : Dev nD)
    (hrow : ∀ (t : Fin cfg0.N), t.val % 16 = 15 → ∀ (r : Fin 512) (R : Fin 4096), R.val = 512 * (t.val / 16) + r.val →
      accAfter m c t.val t.isLt (ix2 r (0 : Fin 1)) = Cert.Spec.picked (V m c main_arg0) (V m c main_arg1) R)
    (t : Fin cfg0.N) (hf : (cfg0.win 2).flush t = true) :
    (dats m 0 c).flushed 2 t = ((cfg0.win 2).blk t).view.read (Elt Ideal)
      (fun i : S4096x1.Idx => Cert.Spec.picked (V m c main_arg0) (V m c main_arg1) ⟨(i 0).val, idx2_lt0 i⟩) := by
  have h15 : t.val % 16 = 15 := (flush0_2 t).mp hf
  funext j
  rw [View.read_apply]
  -- the block is not cut, so what is written back is the staging buffer's contents: the accumulator after t
  show (dats m 0 c).after 2 t ((cfg0.win 2).xinj (cfg0.grid.coords t) j) = _
  rw [after2]
  have hj0 : (j 0).val < 512 := (j 0).isLt
  have hj1 : (j 1).val < 1 := (j 1).isLt
  have e : (cfg0.win 2).xinj (cfg0.grid.coords t) j = ix2 (⟨(j 0).val, hj0⟩ : Fin 512) (0 : Fin 1) := by
    funext a
    match a with
    | ⟨0, _⟩ => rfl
    | ⟨1, _⟩ => exact Fin.ext (by show (j 1).val = 0; omega)
  rw [e]
  -- the array row of the block's row: block index times 512 plus the row inside the block
  exact hrow t h15 ⟨(j 0).val, hj0⟩ _ (by
    show win0_2.index t 0 * 512 + 1 * (j 0).val = 512 * (t.val / 16) + (j 0).val
    rw [(index2 t).1]; omega)

/-- Every index (R, 0) of the result array lies in the block written back at point 16 · (R / 512) + 15, the last
    column tile of row tile R / 512: that block holds the rows 512 · (R / 512) … 512 · (R / 512) + 511. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 128 := N_0
  have h0 : (i 0 : Nat) < 4096 := (i 0).isLt
  have h1 : (i 1 : Nat) < 1 := (i 1).isLt
  have ht : 16 * ((i 0 : Nat) / 512) + 15 < cfg0.N := Nat.lt_of_lt_of_eq (by omega) hN.symm
  refine ⟨⟨16 * ((i 0 : Nat) / 512) + 15, ht⟩,
    (flush0_2 _).mpr (by show (16 * ((i 0 : Nat) / 512) + 15) % 16 = 15; omega), ?_⟩
  show i ∈ ((View.whole main_v0).slice (win0_2.rect ⟨16 * ((i 0 : Nat) / 512) + 15, ht⟩)).set
  rw [View.set_slice_whole, Rect.mem_set_unit]
  intro a
  obtain ⟨e0, e1⟩ := index2 ⟨16 * ((i 0 : Nat) / 512) + 15, ht⟩
  match a with
  | ⟨0, _⟩ =>
    show win0_2.index ⟨16 * ((i 0 : Nat) / 512) + 15, ht⟩ 0 * 512 ≤ (i 0 : Nat)
      ∧ (i 0 : Nat) < win0_2.index ⟨16 * ((i 0 : Nat) / 512) + 15, ht⟩ 0 * 512 + 512
    rw [e0]
    show (16 * ((i 0 : Nat) / 512) + 15) / 16 * 512 ≤ (i 0 : Nat)
      ∧ (i 0 : Nat) < (16 * ((i 0 : Nat) / 512) + 15) / 16 * 512 + 512
    omega
  | ⟨1, _⟩ =>
    show win0_2.index ⟨16 * ((i 0 : Nat) / 512) + 15, ht⟩ 1 * 1 ≤ (i 1 : Nat)
      ∧ (i 1 : Nat) < win0_2.index ⟨16 * ((i 0 : Nat) / 512) + 15, ht⟩ 1 * 1 + 1
    rw [e1]
    omega

/-- The eight write-backs tile the result array, each writing its block of one function of the index: the array
    ends holding the picked entry of every row. -/
theorem result_array (c : Dev nD)
    (hrow : ∀ (t : Fin cfg0.N), t.val % 16 = 15 → ∀ (r : Fin 512) (R : Fin 4096), R.val = 512 * (t.val / 16) + r.val →
      accAfter m c t.val t.isLt (ix2 r (0 : Fin 1)) = Cert.Spec.picked (V m c main_arg0) (V m c main_arg1) R) :
    (dats m 0 c).arrAt 2 cfg0.N
      = (fun i : S4096x1.Idx => Cert.Spec.picked (V m c main_arg0) (V m c main_arg1) ⟨(i 0).val, idx2_lt0 i⟩) :=
  (dats m 0 c).arrAt_eq_of_cover 2 _ (flushed_eq m c hrow) (covered c)

end Cert.KernelIdeal.ResultArray

end
-- ==== Proof.KernelIdeal.Value.lean ====
/-
  What the idealized kernel computes: the result array and the program's result, at the exact reading.

  Row tile a (0 ≤ a < 8) holds matrix rows 512a … 512a + 511, column tile j (0 ≤ j < 16) matrix columns
  3200j … 3200j + 3199, and grid point t is the pair (t / 16, t mod 16).  After the point (a, j) the accumulator's row r
  holds the picked entry of matrix row R = 512a + r if the row's label is below 3200(j + 1), and zero otherwise: each
  column tile adds the picked entry exactly when the label's column is one of its own, and the tiles are visited from
  left to right.  After the last column tile every label is below 51200, so the accumulator holds the picked entry of
  each of its rows; that block is written back as rows 512a … 512a + 511 of the 4096-by-1 result array.  The host
  operations after the launch add the result array up, scale by −2 and divide.
-/
import proofs.«424218_j71167608095256_3_alg».proof.Proof.KernelIdeal.Frame
import proofs.«424218_j71167608095256_3_alg».proof.Proof.KernelIdeal.TileValue
import proofs.«424218_j71167608095256_3_alg».proof.Proof.KernelIdeal.TailValue
import proofs.«424218_j71167608095256_3_alg».proof.Proof.KernelIdeal.ResultArray
import proofs.«424218_j71167608095256_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Picked

open Cert.KernelIdeal Cert.KernelIdeal.Gen Cert.KernelIdeal.Body
open Idealize.ShloMosaic Idealize.ShloMosaic.TcCoe Idealize.ShloMosaic.ValueIdx Idealize.SL.Sem Idealize.ShloMosaic.StableHlo
open Idealize.ShloMosaic.Pipeline (Dat Window)
open scoped BigOperators

variable (m : (ℓ : Loc nD τ sig) → Buf (Elt Ideal) ℓ) (ρ : Dev nD → PrngReg)

/-- The matrix and the labels as the launch finds them. -/
abbrev mat (c : Dev nD) : FVec Ideal Cert.Spec.SX .f32 := V m c main_arg0
abbrev lab (c : Dev nD) : IVec Cert.Spec.SL 32 := V m c main_arg1

/-! ## The grid, decided over its 128 points -/

/-- Point `t` is row tile `t / 16`, column tile `t mod 16`; the three windows' block indices follow. -/
theorem coords_eq : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)
theorem index0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
theorem index1 : ∀ t : Fin cfg0.N, win0_1.index t 0 = t.val / 16 :=
  (by decide +kernel : ∀ t : Fin grid0.N, win0_1.index t 0 = t.val / 16)
theorem index2 : ∀ t : Fin cfg0.N, win0_2.index t 0 = t.val / 16 ∧ win0_2.index t 1 = 0 :=
  (by decide +kernel : ∀ t : Fin grid0.N, win0_2.index t 0 = t.val / 16 ∧ win0_2.index t 1 = 0)
/-- The part of a column tile inside the matrix: all 512 rows; all 3200 columns, but 2257 for the last column tile. -/
theorem xsize0 : ∀ t : Fin cfg0.N, win0_0.xsize (grid0.coords t) 0 = 512
    ∧ win0_0.xsize (grid0.coords t) 1 = if t.val % 16 = 15 then 2257 else 3200 :=
  (by decide +kernel : ∀ t : Fin grid0.N, win0_0.xsize (grid0.coords t) 0 = 512
    ∧ win0_0.xsize (grid0.coords t) 1 = if t.val % 16 = 15 then 2257 else 3200)

/-! ## The staged blocks, read at an index -/

/-- Row `r` of the labels' block at point `t` is the label of matrix row `512 (t / 16) + r`. -/
theorem ltile_at (c : Dev nD) (t : Fin cfg0.N) (r : Fin 512) (R : Fin 4096) (hR : R.val = 512 * (t.val / 16) + r.val) :
    ltile m c t (ix1 r) = lab m c (ix1 R) := by
  unfold ltile iblk
  rw [View.read_apply]
  show V m c main_arg1 _ = V m c main_arg1 _
  congr 1
  funext a
  apply Fin.ext
  match a with
  | ⟨0, _⟩ =>
    show win0_1.index t 0 * 512 + 1 * r.val = R.val
    rw [index1 t, hR]; omega

/-- Entry `(r, cc)` of the matrix's tile at point `t`, for a column inside the matrix, is the matrix's entry at row
    `512 (t / 16) + r`, column `3200 (t mod 16) + cc`. -/
theorem xtile_at (c : Dev nD) (t : Fin cfg0.N) (r : Fin 512) (cc : Fin 3200) (R : Fin 4096) (C : Fin 50257)
    (hR : R.val = 512 * (t.val / 16) + r.val) (hC : C.val = 3200 * (t.val % 16) + cc.val) :
    xtile m c t (ix2 r cc) = mat m c (ix2 R C) := by
  have hN : t.val < 128 := lt_of_lt_of_eq t.isLt (show cfg0.N = 128 from N_0)
  have hm : win0_0.moved (grid0.coords t) (ix2 r cc) = true := by
    rw [win0_0.moved_iff]
    intro a
    match a with
    | ⟨0, _⟩ =>
      show r.val < win0_0.xsize (grid0.coords t) 0
      rw [(xsize0 t).1]; exact r.isLt
    | ⟨1, _⟩ =>
      show cc.val < win0_0.xsize (grid0.coords t) 1
      rw [(xsize0 t).2]
      have := C.isLt
      have := cc.isLt
      split <;> omega
  unfold xtile Window.fill
  rw [dif_pos hm]
  unfold xblk
  rw [View.read_apply]
  show V m c main_arg0 _ = V m c main_arg0 _
  congr 1
  funext a
  apply Fin.ext
  match a with
  | ⟨0, _⟩ =>
    show win0_0.index t 0 * 512 + 1 * r.val = R.val
    rw [(index0 t).1, hR]; omega
  | ⟨1, _⟩ =>
    show win0_0.index t 1 * 3200 + 1 * cc.val = C.val
    rw [(index0 t).2, hC]; omega

/-! ## The accumulator after each grid point -/

/-- One row of the accumulator's update at point `t`, in terms of the matrix and the labels: the old value plus the row's
    picked entry, if the label's column is one of column tile `t mod 16`'s. -/
theorem update_row (hl : LabelsOk m) (c : Dev nD) (t : Fin cfg0.N) (v16 : Vec Ideal S512x1 .f32) (r : Fin 512) (R : Fin 4096)
    (hR : R.val = 512 * (t.val / 16) + r.val) :
    k0_pay2 (F := Ideal) (grid0.coords t) (ltile m c t) (xtile m c t) v16 (ix2 r (0 : Fin 1))
      = v16 (ix2 r (0 : Fin 1))
        + (if 3200 * (t.val % 16) ≤ (lab m c (ix1 R)).toNat ∧ (lab m c (ix1 R)).toNat < 3200 * (t.val % 16) + 3200
            then Cert.Spec.picked (mat m c) (lab m c) R else 0) := by
  have hlab : ltile m c t (ix1 r) = lab m c (ix1 R) := ltile_at m c t r R hR
  have e1 : (ltile m c t (ix1 r)).toNat = (lab m c (ix1 R)).toNat := congrArg BitVec.toNat hlab
  have e2 : (grid0.coords t 1).val = t.val % 16 := (coords_eq t).2
  have hlt : (lab m c (ix1 R)).toNat < 50257 := hl c _
  rw [TileValue.pay2_row _ _ (fun r' => ltile_ok m hl c t _) _ _ r]
  congr 1
  by_cases hc : 3200 * (grid0.coords t 1).val ≤ (ltile m c t (ix1 r)).toNat
      ∧ (ltile m c t (ix1 r)).toNat < 3200 * (grid0.coords t 1).val + 3200
  · rw [dif_pos hc, if_pos (by omega)]
    unfold Cert.Spec.picked
    rw [dif_pos hlt]
    exact xtile_at m c t r _ R ⟨_, hlt⟩ hR (by
      show (lab m c (ix1 R)).toNat = 3200 * (t.val % 16) + ((ltile m c t (ix1 r)).toNat - 3200 * (grid0.coords t 1).val)
      omega)
  · rw [dif_neg hc, if_neg (by omega)]

/-- After point `n` the accumulator's row `r` holds the picked entry of matrix row `512 (n / 16) + r` if the row's label is
    below `3200 (n mod 16 + 1)`, and zero otherwise. -/
theorem accAfter_row (hl : LabelsOk m) (c : Dev nD) :
    ∀ (n : ℕ) (hn : n < cfg0.N) (r : Fin 512) (R : Fin 4096), R.val = 512 * (n / 16) + r.val →
      accAfter m c n hn (ix2 r (0 : Fin 1))
        = if (lab m c (ix1 R)).toNat < 3200 * (n % 16 + 1) then Cert.Spec.picked (mat m c) (lab m c) R else 0 := by
  intro n
  induction n with
  | zero =>
    intro hn r R hR
    rw [accAfter_first m c ⟨0, hn⟩ rfl, update_row m hl c ⟨0, hn⟩ _ r R hR, TileValue.pay1_row, zero_add]
    show (if 3200 * (0 % 16) ≤ _ ∧ _ < 3200 * (0 % 16) + 3200 then _ else (0 : EReal)) = _
    by_cases hin : (lab m c (ix1 R)).toNat < 3200
    · rw [if_pos ⟨by omega, by omega⟩, if_pos (by omega)]
    · rw [if_neg (by omega), if_neg (by omega)]
  | succ n ih =>
    intro hn r R hR
    have hN : n + 1 < 128 := lt_of_lt_of_eq hn (show cfg0.N = 128 from N_0)
    by_cases h0 : (n + 1) % 16 = 0
    · rw [accAfter_first m c ⟨n + 1, hn⟩ h0, update_row m hl c ⟨n + 1, hn⟩ _ r R hR, TileValue.pay1_row, zero_add]
      show (if 3200 * ((n + 1) % 16) ≤ _ ∧ _ < 3200 * ((n + 1) % 16) + 3200 then _ else (0 : EReal)) = _
      by_cases hin : (lab m c (ix1 R)).toNat < 3200
      · rw [if_pos ⟨by omega, by omega⟩, if_pos (by omega)]
      · rw [if_neg (by omega), if_neg (by omega)]
    · have hprev := ih (Nat.lt_of_succ_lt hn) r R (by show R.val = 512 * (n / 16) + r.val; omega)
      rw [accAfter_next m c ⟨n + 1, hn⟩ h0, update_row m hl c ⟨n + 1, hn⟩ _ r R hR]
      show accAfter m c n _ (ix2 r (0 : Fin 1)) + (if 3200 * ((n + 1) % 16) ≤ _ ∧ _ < 3200 * ((n + 1) % 16) + 3200 then _ else (0 : EReal)) = _
      rw [hprev]
      by_cases hb : (lab m c (ix1 R)).toNat < 3200 * (n % 16 + 1)
      · rw [if_pos hb, if_neg (by omega), if_pos (by omega), add_zero]
      · rw [if_neg hb, zero_add]
        by_cases hin : (lab m c (ix1 R)).toNat < 3200 * ((n + 1) % 16 + 1)
        · rw [if_pos ⟨by omega, by omega⟩, if_pos hin]
        · rw [if_neg (by omega), if_neg hin]

/-- After a last column tile the accumulator's rows are the picked entries. -/
theorem accAfter_last (hl : LabelsOk m) (c : Dev nD) (t : Fin cfg0.N) (h15 : t.val % 16 = 15) (r : Fin 512) (R : Fin 4096)
    (hR : R.val = 512 * (t.val / 16) + r.val) :
    accAfter m c t.val t.isLt (ix2 r (0 : Fin 1)) = Cert.Spec.picked (V m c main_arg0) (V m c main_arg1) R := by
  have hlt : (lab m c (ix1 R)).toNat < 50257 := hl c _
  rw [accAfter_row m hl c t.val t.isLt r R hR, if_pos (by omega)]

/-! ## The result array and the program's result -/

/-- The result array after the launch: row `R` holds the picked entry of matrix row `R`. -/
theorem result_array (hl : LabelsOk m) (c : Dev nD) :
    (dats m 0 c).arrAt 2 cfg0.N
      = (fun i : S4096x1.Idx => Cert.Spec.picked (V m c main_arg0) (V m c main_arg1) ⟨(i 0).val, idx2_lt0 i⟩) :=
  ResultArray.result_array m c (fun t h15 r R hR => accAfter_last m hl c t h15 r R hR)

/-- The program's result, read off the host operations after the launch: the loss with the sum scaled. -/
theorem result_eq (hl : LabelsOk m) (c : Dev nD) :
    Pipeline.afterTail₀ cfgs (dats m) 0 (V0 m) [hostOps1] c main_v3
      = fun _ => Cert.Spec.lossScaledSum (mat m c) (lab m c) := by
  unfold Pipeline.afterTail₀
  show StableHlo.after hostOps1 _ (Proc.devRef .tc main_v3) = _
  after_results
  have harr : Pipeline.withArrays (cfgs 0).spec c (V0 m c) (fun w => (dats m 0 c).arrAt w (cfgs 0).N) (Proc.tc.devRef main_v0)
      = (fun i : S4096x1.Idx => Cert.Spec.picked (V m c main_arg0) (V m c main_arg1) ⟨(i 0).val, idx2_lt0 i⟩) :=
    (Pipeline.withArrays_arr spec0 launch0.win.arr_inj c _ _ 2).trans (result_array m hl c)
  rw [harr, TailValue.tail_value]
  rfl

/-- THE RUN: under the label range every weakly fair execution of the idealized program terminates with its result at the loss
    (the sum scaled) and both arguments as they were. -/
theorem run (hl : LabelsOk m) :
    θ_run defs (onTc (τ := τ) (main (F := Ideal))) ⟨m, fun _ => 0, ρ⟩ (fun r => ∀ c : Dev nD,
      r.2.mem ((c.tc : Thread nD τ).loc main_v3) = (fun _ => Cert.Spec.lossScaledSum (mat m c) (lab m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 rfl (fun w => by fin_cases w <;> decide))).trans (result_eq m hl c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ hl)

end Cert.KernelIdeal.Picked

end
-- ==== Proof.lean ====
/-
  The certificate.  Inputs: a 4096-by-50257 matrix of finite numbers and 4096 labels, each a column number of the
  matrix (0 ≤ label < 50257: the domain on which the reference's indexing is defined).

  The kernel streams the matrix tile by tile, keeps in each row the entry whose column is the row's label, and ends
  with −2 times the sum of the picked entries, divided by 4096 · 50257.  The reference gathers the picked entries,
  scales each by −2, sums and divides.  Over the extended reals −2 · Σ p = Σ (−2 · p) because every entry is a real
  number (the precondition's finiteness), so the two results are equal.  The label range is what makes the kernel's
  value well defined: its last column tile reaches 943 columns past the matrix, and only a label outside the range
  could select one of them.  The three frames hold under the same precondition; the idealization rewrote nothing.
-/
import proofs.«424218_j71167608095256_3_alg».proof.Defs
import proofs.«424218_j71167608095256_3_alg».proof.Proof.Gen.Kernel
import proofs.«424218_j71167608095256_3_alg».proof.Proof.Gen.KernelIdeal
import proofs.«424218_j71167608095256_3_alg».proof.Proof.Gen.ReferenceIdeal
import proofs.«424218_j71167608095256_3_alg».proof.Proof.Gen.Pre_finite_inputs
import proofs.«424218_j71167608095256_3_alg».proof.Proof.Gen.ReferenceIdeal.Run
import proofs.«424218_j71167608095256_3_alg».proof.Proof.Gen.ReferenceIdeal.Read
import proofs.«424218_j71167608095256_3_alg».proof.Proof.PreRead
import proofs.«424218_j71167608095256_3_alg».proof.Proof.Spec
import proofs.«424218_j71167608095256_3_alg».proof.Proof.RefValue
import proofs.«424218_j71167608095256_3_alg».proof.Proof.Kernel.Frame
import proofs.«424218_j71167608095256_3_alg».proof.Proof.KernelIdeal.Frame
import proofs.«424218_j71167608095256_3_alg».proof.Proof.KernelIdeal.Value
import Idealize.ShloMosaic.Adequacy
import Idealize.ShloMosaic.Init

noncomputable section

namespace Cert.Proof

open Idealize.ShloMosaic Idealize.ShloMosaic.TcCoe Idealize.SL.Sem

/-- Under the precondition the labels the word-level program is launched with are columns of the matrix. -/
theorem labels_ok_bits (m : (ℓ : Loc Cert.Kernel.nD Cert.Kernel.τ Cert.Kernel.sig) → Buf (Elt Bits) ℓ) (h : Cert.Pre_Kernel m) :
    Cert.Kernel.Body.LabelsOk m :=
  fun c r => Cert.PreRead.label_lt _ _ (h c) r

/-- The same for the idealized program. -/
theorem labels_ok (m : (ℓ : Loc Cert.KernelIdeal.nD Cert.KernelIdeal.τ Cert.KernelIdeal.sig) → Buf (Elt Ideal) ℓ)
    (h : Cert.Pre_KernelIdeal m) : Cert.KernelIdeal.Body.LabelsOk m :=
  fun c r => Cert.PreRead.label_lt _ _ (h c) r

theorem frame_k : Cert.frame_Kernel := fun m ρ h => Cert.Kernel.Body.frame m ρ (labels_ok_bits m h)
theorem frame_ki : Cert.frame_KernelIdeal := fun m ρ h => Cert.KernelIdeal.Body.frame m ρ (labels_ok m h)
theorem frame_ri : Cert.frame_ReferenceIdeal := fun m ρ _ =>
  (θ_run Cert.ReferenceIdeal.defs _ _).mono (fun _ h c => (h c).2) (Cert.ReferenceIdeal.Value.run (F := Ideal) m ρ)

/-- The kernel's run ends at the loss with the sum scaled, the reference's at the loss with the scaled entries summed:
    the same extended real when every entry is real. -/
theorem algebraic : Cert.algebraic_KernelIdeal_ReferenceIdeal := by
  intro m ρ m' ρ' hpre hagree
  refine ⟨fun c => fun _ => Cert.Spec.lossScaledSum (Cert.KernelIdeal.Picked.mat m c) (Cert.KernelIdeal.Picked.lab m c),
    Cert.KernelIdeal.Picked.run m ρ (labels_ok m hpre), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, (hagree c).1, (hagree c).2]
  have hl : Cert.Spec.InRange (m ((c.tc : Thread Cert.KernelIdeal.nD Cert.KernelIdeal.τ).loc Cert.KernelIdeal.main_arg1)) :=
    fun r => Cert.PreRead.label_lt _ _ (hpre c) r
  have hx : Cert.Spec.AllReal (m ((c.tc : Thread Cert.KernelIdeal.nD Cert.KernelIdeal.τ).loc Cert.KernelIdeal.main_arg0)) :=
    fun i => Cert.PreRead.entry_real _ _ (hpre c) i
  rw [Cert.RefValue.ref_value _ _ hl]
  funext i
  exact (Cert.Spec.lossScaledSum_eq_lossSumScaled _ _ hx).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
